-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x64 : Shape := ⟨2, ![100000, 64]⟩

abbrev nBuf : Space → Nat
  | .hbm => 84
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S_, .i32⟩
  | .hbm, ⟨76, _⟩ => ⟨S_, .f32⟩
  | .hbm, ⟨77, _⟩ => ⟨S128x128, .f32⟩
  | .hbm, ⟨78, _⟩ => ⟨S_, .i32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x1, .f32⟩
  | .local _ .vmem, ⟨37, _⟩ => ⟨S10000x1, .f32⟩
  | .local _ .vmem, ⟨38, _⟩ => ⟨S128x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_call0_v0 : Ref sig .tc := ⟨.hbm, 76, rfl⟩
abbrev main_v52 : Ref sig .tc := ⟨.hbm, 77, rfl⟩
abbrev main_c_13 : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S128x128_S128x128 : S128x128.ShapeCasts S128x128
  slices_S100000x128_S100000x64_0_0 : S100000x128.Slices ![0, 0] S100000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S100000x128.size a
  hwx5_4 : ∀ i : grid5.Coords, EltTy.bits .f32 = 32 ∨ (Rect.block (s := S100000x128) S10000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v51) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Rows.lean ====
/-
  The six kernel bodies' stored values, read at one entry of the block, on the extended reals.
  A scale body stores, at (p, q), the feature block's entry (p, q) times the norm column's entry p.
  A transform body stores, at (p, q), the sum over k of (feature (p, k) · norm p) · weight (k, q), plus the bias row's
  entry q — the matrix product into a zero accumulator is that sum, the contraction's one axis re-indexed by its
  coordinate — and, in the first two layers, the larger of that and zero.
  The three scale bodies differ only in an identity shape cast on the features, and the three transform bodies only in
  an identity shape cast on the weights and in the clamp; each shape is proved once, over any vector that agrees with
  the loaded one entry by entry.
-/
import proofs.«424892_j39814346834505_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen

/-- A column [a, 1] broadcast along the rows to [a, b] reads, at (p, q), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The norm column as the bodies use it: cast to its own shape, then broadcast along the rows; at (p, q) it is the column at p. -/
theorem normCol_apply (x1 : Vec Ideal S10000x1 .f32) (p : Fin 10000) (q : Fin 128) :
    broadcastTo S10000x128 (shapeCast S10000x1 x1 shapeCasts_S10000x1_S10000x1) broadcasts_S10000x1_S10000x128 (ix2 p q)
      = x1 (ix2 p (0 : Fin 1)) := by
  refine (broadcastTo_a1_ab_apply _ _ p q).trans ?_
  rw [shapeCast_self]

/-- The bias row as the bodies use it: cast to its own shape, then broadcast down the rows; at (p, q) it is the row at q. -/
theorem biasRow_apply (b : Vec Ideal S1x128 .f32) (p : Fin 10000) (q : Fin 128) :
    broadcastTo S10000x128 (shapeCast S1x128 b shapeCasts_S1x128_S1x128) broadcasts_S1x128_S10000x128 (ix2 p q)
      = b (ix2 (0 : Fin 1) q) := by
  refine (broadcastTo_1b_ab_apply _ _ p q).trans ?_
  rw [shapeCast_self]

/-! ## The scale bodies -/

/-- A product of a feature vector with the broadcast norm column, at (p, q). -/
theorem scaled_apply (xc : FVec Ideal S10000x128 .f32) (x1 : Vec Ideal S10000x1 .f32) (p : Fin 10000) (q : Fin 128) :
    mulf xc (broadcastTo S10000x128 (shapeCast S10000x1 x1 shapeCasts_S10000x1_S10000x1) broadcasts_S10000x1_S10000x128) (ix2 p q)
      = xc (ix2 p q) * x1 (ix2 p (0 : Fin 1)) :=
  (mulf_apply _ _ _).trans (congrArg (xc (ix2 p q) * ·) (normCol_apply x1 p q))

/-- Region 0's store: feature (p, q) times the norm column at p. -/
theorem scale_pay0 (x0 : Vec Ideal S10000x128 .f32) (x1 : Vec Ideal S10000x1 .f32) (p : Fin 10000) (q : Fin 128) :
    k0_pay1 x0 x1 (ix2 p q) = x0 (ix2 p q) * x1 (ix2 p (0 : Fin 1)) := by
  unfold k0_pay1
  exact scaled_apply x0 x1 p q

/-- Region 2's store: the same, the features first cast to their own shape. -/
theorem scale_pay2 (x0 : Vec Ideal S10000x128 .f32) (x1 : Vec Ideal S10000x1 .f32) (p : Fin 10000) (q : Fin 128) :
    k2_pay1 x0 x1 (ix2 p q) = x0 (ix2 p q) * x1 (ix2 p (0 : Fin 1)) := by
  unfold k2_pay1
  refine (scaled_apply _ x1 p q).trans ?_
  rw [shapeCast_self]

/-- Region 4's store: as region 2's. -/
theorem scale_pay4 (x0 : Vec Ideal S10000x128 .f32) (x1 : Vec Ideal S10000x1 .f32) (p : Fin 10000) (q : Fin 128) :
    k4_pay1 x0 x1 (ix2 p q) = x0 (ix2 p q) * x1 (ix2 p (0 : Fin 1)) := by
  unfold k4_pay1
  refine (scaled_apply _ x1 p q).trans ?_
  rw [shapeCast_self]

/-! ## The block's matrix product: the contraction's one axis as `Fin 128` -/

theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's matrix product into a zero accumulator, at (p, q): the sum over k of left (p, k) times right (k, q). -/
theorem matmul_blk_apply (l : FVec Ideal S10000x128 .f32) (r : FVec Ideal S128x128 .f32) (p : Fin 10000) (q : Fin 128) :
    matmul dot_S10000x128_S128x128_S10000x128_1_0_0_1_n_n none l r (constant S10000x128 .f32 0x00000000#32) (ix2 p q) = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The transform bodies -/

/-- The transform before the clamp, over any weights vector: the row's scaled features times the weights' column, plus the bias. -/
theorem affine_apply (x0 : FVec Ideal S10000x128 .f32) (x1 : FVec Ideal S10000x1 .f32) (wc : FVec Ideal S128x128 .f32) (b : FVec Ideal S1x128 .f32)
    (p : Fin 10000) (q : Fin 128) :
    addf (matmul dot_S10000x128_S128x128_S10000x128_1_0_0_1_n_n none
        (mulf (shapeCast S10000x128 x0 shapeCasts_S10000x128_S10000x128)
          (broadcastTo S10000x128 (shapeCast S10000x1 x1 shapeCasts_S10000x1_S10000x1) broadcasts_S10000x1_S10000x128))
        wc (constant S10000x128 .f32 0x00000000#32))
      (broadcastTo S10000x128 (shapeCast S1x128 b shapeCasts_S1x128_S1x128) broadcasts_S1x128_S10000x128) (ix2 p q)
      = (∑ k : Fin 128, (x0 (ix2 p k) * x1 (ix2 p (0 : Fin 1))) * wc (ix2 k q)) + b (ix2 (0 : Fin 1) q) := by
  refine (addf_apply _ _ _).trans ?_
  refine congrArg₂ (· + ·) ?_ (biasRow_apply b p q)
  refine (matmul_blk_apply _ _ p q).trans ?_
  refine Finset.sum_congr rfl fun k _ => ?_
  refine congrArg (· * wc (ix2 k q)) ?_
  refine (scaled_apply _ x1 p k).trans ?_
  rw [shapeCast_self]

/-- Region 1's store: the transform, clamped at zero. -/
theorem dense_pay1 (x0 : Vec Ideal S10000x128 .f32) (x1 : Vec Ideal S10000x1 .f32) (w : Vec Ideal S128x128 .f32) (b : Vec Ideal S1x128 .f32) (p : Fin 10000) (q : Fin 128) :
    k1_pay1 x0 x1 w b (ix2 p q) = max ((∑ k : Fin 128, (x0 (ix2 p k) * x1 (ix2 p (0 : Fin 1))) * w (ix2 k q)) + b (ix2 (0 : Fin 1) q)) 0 := by
  unfold k1_pay1
  refine (maximumf_apply _ _ _).trans ?_
  exact congrArg₂ max (affine_apply x0 x1 w b p q) Ideal.ofBits_zero_f32

/-- Region 3's store: as region 1's. -/
theorem dense_pay3 (x0 : Vec Ideal S10000x128 .f32) (x1 : Vec Ideal S10000x1 .f32) (w : Vec Ideal S128x128 .f32) (b : Vec Ideal S1x128 .f32) (p : Fin 10000) (q : Fin 128) :
    k3_pay1 x0 x1 w b (ix2 p q) = max ((∑ k : Fin 128, (x0 (ix2 p k) * x1 (ix2 p (0 : Fin 1))) * w (ix2 k q)) + b (ix2 (0 : Fin 1) q)) 0 := by
  unfold k3_pay1
  refine (maximumf_apply _ _ _).trans ?_
  exact congrArg₂ max (affine_apply x0 x1 w b p q) Ideal.ofBits_zero_f32

/-- Region 5's store: the transform with no clamp, the weights first cast to their own shape. -/
theorem dense_pay5 (x0 : Vec Ideal S10000x128 .f32) (x1 : Vec Ideal S10000x1 .f32) (w : Vec Ideal S128x128 .f32) (b : Vec Ideal S1x128 .f32) (p : Fin 10000) (q : Fin 128) :
    k5_pay1 x0 x1 w b (ix2 p q) = (∑ k : Fin 128, (x0 (ix2 p k) * x1 (ix2 p (0 : Fin 1))) * w (ix2 k q)) + b (ix2 (0 : Fin 1) q) := by
  unfold k5_pay1
  refine (affine_apply x0 x1 _ b p q).trans ?_
  rw [shapeCast_self]

end Cert.KernelIdeal.Rows

end
-- ==== Proof.Spec.lean ====
/-
  The dense stages of one graph-convolution layer as whole-array functions of extended reals, index by index.
  A layer is: scale every row of the features by the source-degree norm, sum along the edges, scale every row of the
  sum by the target-degree norm, multiply by the weights, add the bias, and (all layers but the last) clamp at zero.
  The two row-wise stages are stated here over the literal shapes [100000, 128] (features), [100000, 1] (a norm as a
  column), [128, 128] (weights) and [1, 128] (a bias as a row); the sum along the edges is the same host text in both
  programs and is never opened.
-/
import Idealize.ShloMosaic.PureOps.Ideal
import Idealize.ShloMosaic.Lib.ValueIdx

noncomputable section

open scoped BigOperators

namespace Cert.Gcn

open Idealize.ShloMosaic Idealize.ShloMosaic.ValueIdx

abbrev SNx128 : Shape := ⟨2, ![100000, 128]⟩
abbrev SNx1 : Shape := ⟨2, ![100000, 1]⟩
abbrev S128x128 : Shape := ⟨2, ![128, 128]⟩
abbrev S1x128 : Shape := ⟨2, ![1, 128]⟩

/-- The row coordinate of an index of a [100000, 128] array. -/
abbrev rowOf (i : SNx128.Idx) : Fin 100000 := ⟨(i 0).val, (i 0).isLt⟩
/-- The column coordinate of an index of a [100000, 128] array. -/
abbrev colOf (i : SNx128.Idx) : Fin 128 := ⟨(i 1).val, (i 1).isLt⟩

/-- Row r of `x` times the r-th entry of the column `n`. -/
def scaleRows (x : SNx128.Idx → EReal) (n : SNx1.Idx → EReal) : SNx128.Idx → EReal :=
  fun i => x i * n (ix2 (rowOf i) (0 : Fin 1))

/-- Entry (r, q) of `(a · n) W + b`: the sum over k of `a r k · n r · W k q`, plus `b q`. -/
def denseRows (a : SNx128.Idx → EReal) (n : SNx1.Idx → EReal) (w : S128x128.Idx → EReal) (b : S1x128.Idx → EReal) :
    SNx128.Idx → EReal :=
  fun i => (∑ k : Fin 128, (a (ix2 (rowOf i) k) * n (ix2 (rowOf i) (0 : Fin 1))) * w (ix2 k (colOf i))) + b (ix2 (0 : Fin 1) (colOf i))

/-- The same clamped at zero from below. -/
def denseReluRows (a : SNx128.Idx → EReal) (n : SNx1.Idx → EReal) (w : S128x128.Idx → EReal) (b : S1x128.Idx → EReal) :
    SNx128.Idx → EReal :=
  fun i => max (denseRows a n w b i) 0

theorem scaleRows_ix2 (x : SNx128.Idx → EReal) (n : SNx1.Idx → EReal) (r : Fin 100000) (q : Fin 128) :
    scaleRows x n (ix2 r q) = x (ix2 r q) * n (ix2 r (0 : Fin 1)) := rfl

theorem denseRows_ix2 (a : SNx128.Idx → EReal) (n : SNx1.Idx → EReal) (w : S128x128.Idx → EReal) (b : S1x128.Idx → EReal)
    (r : Fin 100000) (q : Fin 128) :
    denseRows a n w b (ix2 r q) = (∑ k : Fin 128, (a (ix2 r k) * n (ix2 r (0 : Fin 1))) * w (ix2 k q)) + b (ix2 (0 : Fin 1) q) := rfl

theorem denseReluRows_ix2 (a : SNx128.Idx → EReal) (n : SNx1.Idx → EReal) (w : S128x128.Idx → EReal) (b : S1x128.Idx → EReal)
    (r : Fin 100000) (q : Fin 128) :
    denseReluRows a n w b (ix2 r q)
      = max ((∑ k : Fin 128, (a (ix2 r k) * n (ix2 r (0 : Fin 1))) * w (ix2 k q)) + b (ix2 (0 : Fin 1) q)) 0 := rfl

end Cert.Gcn

end
-- ==== Proof.Region0.lean ====
/-
  Region 0, the first layer's scaling by the source-degree norm, as one function of the arrays it finds.
  The grid has ten points; point t reads rows 10000·t … 10000·t + 9999 of the features and of the norm column and
  writes the same rows of the result. Entry (r, q) of the result is therefore feature (r, q) times norm r: what point
  r / 10000 stores at row r mod 10000 of its block. The ten row blocks cover the result array.
-/
import proofs.«424892_j39814346834505_3_alg».proof.Proof.Gen.KernelIdeal.Frame
import proofs.«424892_j39814346834505_3_alg».proof.Proof.Rows
import proofs.«424892_j39814346834505_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Rows Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows (features, norm column, result) sit at block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of point t's block of the features is row 10000·t + p of the array. -/
theorem feats_blk (c : Dev nD) (t : Fin cfg0.N) (p : Fin 10000) (q : Fin 128) (r : Fin 100000) (hr : r.val = t.val * 10000 + p.val) :
    (iblk0 V c 0 t : Vec Ideal S10000x128 .f32) (ix2 p q) = (V c main_arg0 : SNx128.Idx → EReal) (ix2 r q) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * q.val = q.val; rw [e1]; omega

/-- Entry p of point t's block of the norm column is entry 10000·t + p of the column. -/
theorem norm_blk (c : Dev nD) (t : Fin cfg0.N) (p : Fin 10000) (r : Fin 100000) (hr : r.val = t.val * 10000 + p.val) :
    (iblk0 V c 1 t : Vec Ideal S10000x1 .f32) (ix2 p (0 : Fin 1)) = (V c main_v13 : SNx1.Idx → EReal) (ix2 r (0 : Fin 1)) := by
  obtain ⟨-, -, e2, e3, -⟩ := idx_facts t
  unfold iblk0
  rw [View.read_apply]
  show V c main_v13 _ = V c main_v13 _
  refine congrArg (V c main_v13) ?_
  funext a
  apply Fin.ext
  match a with
  | ⟨0, _⟩ => show win0_1.index t (0 : Fin 2) * 10000 + 1 * p.val = r.val; rw [e2, hr]; omega
  | ⟨1, _⟩ => show win0_1.index t (1 : Fin 2) * 1 + 1 * 0 = 0; rw [e3]

/-- Entry (p, q) of point t's result block lands at entry (10000·t + p, q) of the result array. -/
theorem out_emb (t : Fin cfg0.N) (p : Fin 10000) (q : Fin 128) (r : Fin 100000) (hr : r.val = t.val * 10000 + p.val) :
    ((cfg0.win 2).blk t).view.emb (ix2 p q) = (ix2 r q : SNx128.Idx) := by
  obtain ⟨-, -, -, -, e4, e5⟩ := idx_facts t
  funext a
  apply Fin.ext
  match a with
  | ⟨0, _⟩ => show win0_2.index t (0 : Fin 2) * 10000 + 1 * p.val = r.val; rw [e4, hr]; omega
  | ⟨1, _⟩ => show win0_2.index t (1 : Fin 2) * 128 + 1 * q.val = q.val; rw [e5]; omega

/-- What point t writes back is block t of the row-scaled features the region finds. -/
theorem flushed_eq (c : Dev nD) (t : Fin cfg0.N) :
    (dat0 V c).flushed 2 t
      = ((cfg0.win 2).blk t).view.read (Elt Ideal) (scaleRows (V c main_arg0) (V c main_v13)) := by
  show (cfg0.win 2).cut (grid0.coords t) ((dat0 V c).after 2 t) = _
  rw [after0_2]
  unfold out0_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  have hN : cfg0.N = 10 := N_0
  have ht := t.isLt
  obtain ⟨r, hr⟩ : ∃ r : Fin 100000, r.val = t.val * 10000 + p.val := ⟨⟨t.val * 10000 + p.val, by have := p.isLt; omega⟩, rfl⟩
  rw [View.read_apply, out_emb t p q r hr, scaleRows_ix2]
  refine (scale_pay0 _ _ p q).trans ?_
  rw [feats_blk V c t p q r hr, norm_blk V c t p r hr]
  rfl

/-- The ten row blocks cover the result array: row r is in point r / 10000's block. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  let t : Fin cfg0.N := ⟨(i 0).val / 10000, by omega⟩
  obtain ⟨-, -, -, -, e4, e5⟩ := idx_facts t
  have e4' : win0_2.index t (0 : Fin 2) = (i 0).val / 10000 := e4
  refine ⟨t, flush0_2 t, ?_⟩
  show i ∈ ((View.whole main_v15).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region: the row-scaled features the region finds. -/
theorem arr (c : Dev nD) :
    (dat0 V c).arrAt 2 cfg0.N = scaleRows (V c main_arg0) (V c main_v13) :=
  (dat0 V c).arrAt_eq_of_cover 2 _ (fun t _ => flushed_eq V c t) (cover c)

end Cert.KernelIdeal.Region0

end
-- ==== Proof.Region1.lean ====
/-
  Region 1, the first layer's transform, as one function of the arrays it finds.
  The grid has ten points; point t reads rows 10000·t … 10000·t + 9999 of the edge sums and of the target-degree norm
  column, the whole weights and the whole bias row, and writes the same rows of the result. Entry (r, q) of the result
  is therefore the sum over k of (sums (r, k) · norm r) · weights (k, q), plus bias q, clamped at zero: what point
  r / 10000 stores at row r mod 10000 of its block. The ten row blocks cover the result array.
-/
import proofs.«424892_j39814346834505_3_alg».proof.Proof.Gen.KernelIdeal.Frame
import proofs.«424892_j39814346834505_3_alg».proof.Proof.Rows
import proofs.«424892_j39814346834505_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Rows Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows (sums, norm column, result) sit at block (t, 0), the
    resident ones (weights, bias row) at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of the edge sums is row 10000·t + p of the array. -/
theorem sums_blk (c : Dev nD) (t : Fin cfg1.N) (p : Fin 10000) (k : Fin 128) (r : Fin 100000) (hr : r.val = t.val * 10000 + p.val) :
    (iblk1 V c 0 t : Vec Ideal S10000x128 .f32) (ix2 p k) = (V c main_v25 : SNx128.Idx → EReal) (ix2 r k) := by
  obtain ⟨e0, e1, -⟩ := idx_facts t
  unfold iblk1
  rw [View.read_apply]
  show V c main_v25 _ = V c main_v25 _
  refine congrArg (V c main_v25) ?_
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Entry p of point t's block of the norm column is entry 10000·t + p of the column. -/
theorem norm_blk (c : Dev nD) (t : Fin cfg1.N) (p : Fin 10000) (r : Fin 100000) (hr : r.val = t.val * 10000 + p.val) :
    (iblk1 V c 1 t : Vec Ideal S10000x1 .f32) (ix2 p (0 : Fin 1)) = (V c main_v14 : SNx1.Idx → EReal) (ix2 r (0 : Fin 1)) := by
  obtain ⟨-, -, e2, e3, -⟩ := idx_facts t
  unfold iblk1
  rw [View.read_apply]
  show V c main_v14 _ = V c main_v14 _
  refine congrArg (V c main_v14) ?_
  funext a
  apply Fin.ext
  match a with
  | ⟨0, _⟩ => show win1_1.index t (0 : Fin 2) * 10000 + 1 * p.val = r.val; rw [e2, hr]; omega
  | ⟨1, _⟩ => show win1_1.index t (1 : Fin 2) * 1 + 1 * 0 = 0; rw [e3]

/-- Every point's block of the weights is the whole array. -/
theorem weights_blk (c : Dev nD) (t : Fin cfg1.N) (k q : Fin 128) :
    (iblk1 V c 2 t : Vec Ideal S128x128 .f32) (ix2 k q) = (V c main_arg3 : Cert.Gcn.S128x128.Idx → EReal) (ix2 k q) := by
  obtain ⟨-, -, -, -, e4, e5, -⟩ := idx_facts t
  unfold iblk1
  rw [View.read_apply]
  show V c main_arg3 _ = V c main_arg3 _
  refine congrArg (V c main_arg3) ?_
  funext a
  apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- Every point's block of the bias row is the whole row. -/
theorem bias_blk (c : Dev nD) (t : Fin cfg1.N) (q : Fin 128) :
    (iblk1 V c 3 t : Vec Ideal S1x128 .f32) (ix2 (0 : Fin 1) q) = (V c main_v26 : Cert.Gcn.S1x128.Idx → EReal) (ix2 (0 : Fin 1) q) := by
  obtain ⟨-, -, -, -, -, -, e6, e7, -⟩ := idx_facts t
  unfold iblk1
  rw [View.read_apply]
  show V c main_v26 _ = V c main_v26 _
  refine congrArg (V c main_v26) ?_
  funext a
  apply Fin.ext
  match a with
  | ⟨0, _⟩ => show win1_3.index t (0 : Fin 2) * 1 + 1 * 0 = 0; rw [e6]
  | ⟨1, _⟩ => show win1_3.index t (1 : Fin 2) * 128 + 1 * q.val = q.val; rw [e7]; omega

/-- Entry (p, q) of point t's result block lands at entry (10000·t + p, q) of the result array. -/
theorem out_emb (t : Fin cfg1.N) (p : Fin 10000) (q : Fin 128) (r : Fin 100000) (hr : r.val = t.val * 10000 + p.val) :
    ((cfg1.win 4).blk t).view.emb (ix2 p q) = (ix2 r q : SNx128.Idx) := by
  obtain ⟨-, -, -, -, -, -, -, -, e8, e9⟩ := idx_facts t
  funext a
  apply Fin.ext
  match a with
  | ⟨0, _⟩ => show win1_4.index t (0 : Fin 2) * 10000 + 1 * p.val = r.val; rw [e8, hr]; omega
  | ⟨1, _⟩ => show win1_4.index t (1 : Fin 2) * 128 + 1 * q.val = q.val; rw [e9]; omega

/-- What point t writes back is block t of the transform of the arrays the region finds. -/
theorem flushed_eq (c : Dev nD) (t : Fin cfg1.N) :
    (dat1 V c).flushed 4 t
      = ((cfg1.win 4).blk t).view.read (Elt Ideal) (denseReluRows (V c main_v25) (V c main_v14) (V c main_arg3) (V c main_v26)) := by
  show (cfg1.win 4).cut (grid1.coords t) ((dat1 V c).after 4 t) = _
  rw [after1_4]
  unfold out1_4
  rw [View.canon_unit_zero hz]
  simp only [View.ld_unit_zero (S := S10000x128) hz, View.ld_unit_zero (S := S10000x1) hz, View.ld_unit_zero (S := Cert.KernelIdeal.S128x128) hz,
    View.ld_unit_zero (S := Cert.KernelIdeal.S1x128) hz]
  funext j
  obtain ⟨p, q, rfl⟩ : ∃ (p : Fin 10000) (q : Fin 128), j = ix2 p q := ⟨j 0, j 1, eq_ix2 j⟩
  have hN : cfg1.N = 10 := N_1
  have ht := t.isLt
  obtain ⟨r, hr⟩ : ∃ r : Fin 100000, r.val = t.val * 10000 + p.val := ⟨⟨t.val * 10000 + p.val, by have := p.isLt; omega⟩, rfl⟩
  rw [View.read_apply, out_emb t p q r hr, denseReluRows_ix2]
  refine (dense_pay1 _ _ _ _ p q).trans ?_
  refine congrArg₂ max (congrArg₂ (· + ·) (Finset.sum_congr rfl fun k _ => ?_) (bias_blk V c t q)) rfl
  rw [sums_blk V c t p k r hr, norm_blk V c t p r hr, weights_blk V c t k q]

/-- The ten row blocks cover the result array: row r is in point r / 10000's block. -/
theorem cover (c : Dev nD) (i : ((cfg1.win 4).arr.view.loc (c.tc : Thread nD τ)).2.ty.Idx) :
    ∃ t : Fin cfg1.N, (cfg1.win 4).flush t = true ∧ i ∈ ((cfg1.win 4).blk t).view.set := by
  have hN : cfg1.N = 10 := N_1
  have hi0 : (i 0).val < 100000 := (i 0).isLt
  have hi1 : (i 1).val < 128 := (i 1).isLt
  let t : Fin cfg1.N := ⟨(i 0).val / 10000, by omega⟩
  obtain ⟨-, -, -, -, -, -, -, -, e8, e9⟩ := idx_facts t
  have e8' : win1_4.index t (0 : Fin 2) = (i 0).val / 10000 := e8
  refine ⟨t, flush1_4 t, ?_⟩
  show i ∈ ((View.whole main_v27).slice (win1_4.rect t)).set
  rw [View.set_slice_whole, Rect.mem_set_unit]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- The result array after the region: the transform of the arrays the region finds. -/
theorem arr (c : Dev nD) :
    (dat1 V c).arrAt 4 cfg1.N = denseReluRows (V c main_v25) (V c main_v14) (V c main_arg3) (V c main_v26) :=
  (dat1 V c).arrAt_eq_of_cover 4 _ (fun t _ => flushed_eq V c t) (cover c)

end Cert.KernelIdeal.Region1

end
-- ==== Proof.Region2.lean ====
/-
  Region 2, the second layer's scaling by the source-degree norm, as one function of the arrays it finds.
  The grid has ten points; point t reads rows 10000·t … 10000·t + 9999 of the features and of the norm column and
  writes the same rows of the result. Entry (r, q) of the result is therefore feature (r, q) times norm r: what point
  r / 10000 stores at row r mod 10000 of its block. The ten row blocks cover the result array.
-/
import proofs.«424892_j39814346834505_3_alg».proof.Proof.Gen.KernelIdeal.Frame
import proofs.«424892_j39814346834505_3_alg».proof.Proof.Rows
import proofs.«424892_j39814346834505_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Rows Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows (features, norm column, result) sit at block (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of point t's block of the features is row 10000·t + p of the array. -/
theorem feats_blk (c : Dev nD) (t : Fin cfg2.N) (p : Fin 10000) (q : Fin 128) (r : Fin 100000) (hr : r.val = t.val * 10000 + p.val) :
    (iblk2 V c 0 t : Vec Ideal S10000x128 .f32) (ix2 p q) = (V c main_v27 : SNx128.Idx → EReal) (ix2 r q) := by
  obtain ⟨e0, e1, -⟩ := idx_facts t
  unfold iblk2
  rw [View.read_apply]
  show V c main_v27 _ = V c main_v27 _
  refine congrArg (V c main_v27) ?_
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * q.val = q.val; rw [e1]; omega

/-- Entry p of point t's block of the norm column is entry 10000·t + p of the column. -/
theorem norm_blk (c : Dev nD) (t : Fin cfg2.N) (p : Fin 10000) (r : Fin 100000) (hr : r.val = t.val * 10000 + p.val) :
    (iblk2 V c 1 t : Vec Ideal S10000x1 .f32) (ix2 p (0 : Fin 1)) = (V c main_v13 : SNx1.Idx → EReal) (ix2 r (0 : Fin 1)) := by
  obtain ⟨-, -, e2, e3, -⟩ := idx_facts t
  unfold iblk2
  rw [View.read_apply]
  show V c main_v13 _ = V c main_v13 _
  refine congrArg (V c main_v13) ?_
  funext a
  apply Fin.ext
  match a with
  | ⟨0, _⟩ => show win2_1.index t (0 : Fin 2) * 10000 + 1 * p.val = r.val; rw [e2, hr]; omega
  | ⟨1, _⟩ => show win2_1.index t (1 : Fin 2) * 1 + 1 * 0 = 0; rw [e3]

/-- Entry (p, q) of point t's result block lands at entry (10000·t + p, q) of the result array. -/
theorem out_emb (t : Fin cfg2.N) (p : Fin 10000) (q : Fin 128) (r : Fin 100000) (hr : r.val = t.val * 10000 + p.val) :
    ((cfg2.win 2).blk t).view.emb (ix2 p q) = (ix2 r q : SNx128.Idx) := by
  obtain ⟨-, -, -, -, e4, e5⟩ := idx_facts t
  funext a
  apply Fin.ext
  match a with
  | ⟨0, _⟩ => show win2_2.index t (0 : Fin 2) * 10000 + 1 * p.val = r.val; rw [e4, hr]; omega
  | ⟨1, _⟩ => show win2_2.index t (1 : Fin 2) * 128 + 1 * q.val = q.val; rw [e5]; omega

/-- What point t writes back is block t of the row-scaled features the region finds. -/
theorem flushed_eq (c : Dev nD) (t : Fin cfg2.N) :
    (dat2 V c).flushed 2 t
      = ((cfg2.win 2).blk t).view.read (Elt Ideal) (scaleRows (V c main_v27) (V c main_v13)) := by
  show (cfg2.win 2).cut (grid2.coords t) ((dat2 V c).after 2 t) = _
  rw [after2_2]
  unfold out2_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  have hN : cfg2.N = 10 := N_2
  have ht := t.isLt
  obtain ⟨r, hr⟩ : ∃ r : Fin 100000, r.val = t.val * 10000 + p.val := ⟨⟨t.val * 10000 + p.val, by have := p.isLt; omega⟩, rfl⟩
  rw [View.read_apply, out_emb t p q r hr, scaleRows_ix2]
  refine (scale_pay2 _ _ p q).trans ?_
  rw [feats_blk V c t p q r hr, norm_blk V c t p r hr]
  rfl

/-- The ten row blocks cover the result array: row r is in point r / 10000's block. -/
theorem cover (c : Dev nD) (i : ((cfg2.win 2).arr.view.loc (c.tc : Thread nD τ)).2.ty.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 128 := (i 1).isLt
  let t : Fin cfg2.N := ⟨(i 0).val / 10000, by omega⟩
  obtain ⟨-, -, -, -, e4, e5⟩ := idx_facts t
  have e4' : win2_2.index t (0 : Fin 2) = (i 0).val / 10000 := e4
  refine ⟨t, flush2_2 t, ?_⟩
  show i ∈ ((View.whole main_v28).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The result array after the region: the row-scaled features the region finds. -/
theorem arr (c : Dev nD) :
    (dat2 V c).arrAt 2 cfg2.N = scaleRows (V c main_v27) (V c main_v13) :=
  (dat2 V c).arrAt_eq_of_cover 2 _ (fun t _ => flushed_eq V c t) (cover c)

end Cert.KernelIdeal.Region2

end
-- ==== Proof.Region3.lean ====
/-
  Region 3, the second layer's transform, as one function of the arrays it finds.
  The grid has ten points; point t reads rows 10000·t … 10000·t + 9999 of the edge sums and of the target-degree norm
  column, the whole weights and the whole bias row, and writes the same rows of the result. Entry (r, q) of the result
  is therefore the sum over k of (sums (r, k) · norm r) · weights (k, q), plus bias q, clamped at zero: what point
  r / 10000 stores at row r mod 10000 of its block. The ten row blocks cover the result array.
-/
import proofs.«424892_j39814346834505_3_alg».proof.Proof.Gen.KernelIdeal.Frame
import proofs.«424892_j39814346834505_3_alg».proof.Proof.Rows
import proofs.«424892_j39814346834505_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.KernelIdeal.Rows Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows (sums, norm column, result) sit at block (t, 0), the
    resident ones (weights, bias row) at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of point t's block of the edge sums is row 10000·t + p of the array. -/
theorem sums_blk (c : Dev nD) (t : Fin cfg3.N) (p : Fin 10000) (k : Fin 128) (r : Fin 100000) (hr : r.val = t.val * 10000 + p.val) :
    (iblk3 V c 0 t : Vec Ideal S10000x128 .f32) (ix2 p k) = (V c main_v38 : SNx128.Idx → EReal) (ix2 r k) := by
  obtain ⟨e0, e1, -⟩ := idx_facts t
  unfold iblk3
  rw [View.read_apply]
  show V c main_v38 _ = V c main_v38 _
  refine congrArg (V c main_v38) ?_
  funext a
  apply Fin.ext
  match a with
  | ⟨0, _⟩ => show win3_0.index t (0 : Fin 2) * 10000 + 1 * p.val = r.val; rw [e0, hr]; omega
  | ⟨1, _⟩ => show win3_0.index t (1 : Fin 2) * 128 + 1 * k.val = k.val; rw [e1]; omega

/-- Entry p of point t's block of the norm column is entry 10000·t + p of the column. -/
theorem norm_blk (c : Dev nD) (t : Fin cfg3.N) (p : Fin 10000) (r : Fin 100000) (hr : r.val = t.val * 10000 + p.val) :
    (iblk3 V c 1 t : Vec Ideal S10000x1 .f32) (ix2 p (0 : Fin 1)) = (V c main_v14 : SNx1.Idx → EReal) (ix2 r (0 : Fin 1)) := by
  obtain ⟨-, -, e2, e3, -⟩ := idx_facts t
  unfold iblk3
  rw [View.read_apply]
  show V c main_v14 _ = V c main_v14 _
  refine congrArg (V c main_v14) ?_
  funext a
  apply Fin.ext
  match a with
  | ⟨0, _⟩ => show win3_1.index t (0 : Fin 2) * 10000 + 1 * p.val = r.val; rw [e2, hr]; omega
  | ⟨1, _⟩ => show win3_1.index t (1 : Fin 2) * 1 + 1 * 0 = 0; rw [e3]

/-- Every point's block of the weights is the whole array. -/
theorem weights_blk (c : Dev nD) (t : Fin cfg3.N) (k q : Fin 128) :
    (iblk3 V c 2 t : Vec Ideal S128x128 .f32) (ix2 k q) = (V c main_arg5 : Cert.Gcn.S128x128.Idx → EReal) (ix2 k q) := by
  obtain ⟨-, -, -, -, e4, e5, -⟩ := idx_facts t
  unfold iblk3
  rw [View.read_apply]
  show V c main_arg5 _ = V c main_arg5 _
  refine congrArg (V c main_arg5) ?_
  funext a
  apply Fin.ext
  match a with
  | ⟨0, _⟩ => show win3_2.index t (0 : Fin 2) * 128 + 1 * k.val = k.val; rw [e4]; omega
  | ⟨1, _⟩ => show win3_2.index t (1 : Fin 2) * 128 + 1 * q.val = q.val; rw [e5]; omega

/-- Every point's block of the bias row is the whole row. -/
theorem bias_blk (c : Dev nD) (t : Fin cfg3.N) (q : Fin 128) :
    (iblk3 V c 3 t : Vec Ideal S1x128 .f32) (ix2 (0 : Fin 1) q) = (V c main_v39 : Cert.Gcn.S1x128.Idx → EReal) (ix2 (0 : Fin 1) q) := by
  obtain ⟨-, -, -, -, -, -, e6, e7, -⟩ := idx_facts t
  unfold iblk3
  rw [View.read_apply]
  show V c main_v39 _ = V c main_v39 _
  refine congrArg (V c main_v39) ?_
  funext a
  apply Fin.ext
  match a with
  | ⟨0, _⟩ => show win3_3.index t (0 : Fin 2) * 1 + 1 * 0 = 0; rw [e6]
  | ⟨1, _⟩ => show win3_3.index t (1 : Fin 2) * 128 + 1 * q.val = q.val; rw [e7]; omega

/-- Entry (p, q) of point t's result block lands at entry (10000·t + p, q) of the result array. -/
theorem out_emb (t : Fin cfg3.N) (p : Fin 10000) (q : Fin 128) (r : Fin 100000) (hr : r.val = t.val * 10000 + p.val) :
    ((cfg3.win 4).blk t).view.emb (ix2 p q) = (ix2 r q : SNx128.Idx) := by
  obtain ⟨-, -, -, -, -, -, -, -, e8, e9⟩ := idx_facts t
  funext a
  apply Fin.ext
  match a with
  | ⟨0, _⟩ => show win3_4.index t (0 : Fin 2) * 10000 + 1 * p.val = r.val; rw [e8, hr]; omega
  | ⟨1, _⟩ => show win3_4.index t (1 : Fin 2) * 128 + 1 * q.val = q.val; rw [e9]; omega

/-- What point t writes back is block t of the transform of the arrays the region finds. -/
theorem flushed_eq (c : Dev nD) (t : Fin cfg3.N) :
    (dat3 V c).flushed 4 t
      = ((cfg3.win 4).blk t).view.read (Elt Ideal) (denseReluRows (V c main_v38) (V c main_v14) (V c main_arg5) (V c main_v39)) := by
  show (cfg3.win 4).cut (grid3.coords t) ((dat3 V c).after 4 t) = _
  rw [after3_4]
  unfold out3_4
  rw [View.canon_unit_zero hz]
  simp only [View.ld_unit_zero (S := S10000x128) hz, View.ld_unit_zero (S := S10000x1) hz, View.ld_unit_zero (S := Cert.KernelIdeal.S128x128) hz,
    View.ld_unit_zero (S := Cert.KernelIdeal.S1x128) hz]
  funext j
  obtain ⟨p, q, rfl⟩ : ∃ (p : Fin 10000) (q : Fin 128), j = ix2 p q := ⟨j 0, j 1, eq_ix2 j⟩
  have hN : cfg3.N = 10 := N_3
  have ht := t.isLt
  obtain ⟨r, hr⟩ : ∃ r : Fin 100000, r.val = t.val * 10000 + p.val := ⟨⟨t.val * 10000 + p.val, by have := p.isLt; omega⟩, rfl⟩
  rw [View.read_apply, out_emb t p q r hr, denseReluRows_ix2]
  refine (dense_pay3 _ _ _ _ p q).trans ?_
  refine congrArg₂ max (congrArg₂ (· + ·) (Finset.sum_congr rfl fun k _ => ?_) (bias_blk V c t q)) rfl
  rw [sums_blk V c t p k r hr, norm_blk V c t p r hr, weights_blk V c t k q]

/-- The ten row blocks cover the result array: row r is in point r / 10000's block. -/
theorem cover (c : Dev nD) (i : ((cfg3.win 4).arr.view.loc (c.tc : Thread nD τ)).2.ty.Idx) :
    ∃ t : Fin cfg3.N, (cfg3.win 4).flush t = true ∧ i ∈ ((cfg3.win 4).blk t).view.set := by
  have hN : cfg3.N = 10 := N_3
  have hi0 : (i 0).val < 100000 := (i 0).isLt
  have hi1 : (i 1).val < 128 := (i 1).isLt
  let t : Fin cfg3.N := ⟨(i 0).val / 10000, by omega⟩
  obtain ⟨-, -, -, -, -, -, -, -, e8, e9⟩ := idx_facts t
  have e8' : win3_4.index t (0 : Fin 2) = (i 0).val / 10000 := e8
  refine ⟨t, flush3_4 t, ?_⟩
  show i ∈ ((View.whole main_v40).slice (win3_4.rect t)).set
  rw [View.set_slice_whole, Rect.mem_set_unit]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 128 ≤ (i 1).val ∧ (i 1).val < win3_4.index t (1 : Fin 2) * 128 + 128; omega

/-- The result array after the region: the transform of the arrays the region finds. -/
theorem arr (c : Dev nD) :
    (dat3 V c).arrAt 4 cfg3.N = denseReluRows (V c main_v38) (V c main_v14) (V c main_arg5) (V c main_v39) :=
  (dat3 V c).arrAt_eq_of_cover 4 _ (fun t _ => flushed_eq V c t) (cover c)

end Cert.KernelIdeal.Region3

end
-- ==== Proof.Region4.lean ====
/-
  Region 4, the third layer's scaling by the source-degree norm, as one function of the arrays it finds.
  The grid has ten points; point t reads rows 10000·t … 10000·t + 9999 of the features and of the norm column and
  writes the same rows of the result. Entry (r, q) of the result is therefore feature (r, q) times norm r: what point
  r / 10000 stores at row r mod 10000 of its block. The ten row blocks cover the result array.
-/
import proofs.«424892_j39814346834505_3_alg».proof.Proof.Gen.KernelIdeal.Frame
import proofs.«424892_j39814346834505_3_alg».proof.Proof.Rows
import proofs.«424892_j39814346834505_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.KernelIdeal.Rows Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows (features, norm column, result) sit at block (t, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row p of point t's block of the features is row 10000·t + p of the array. -/
theorem feats_blk (c : Dev nD) (t : Fin cfg4.N) (p : Fin 10000) (q : Fin 128) (r : Fin 100000) (hr : r.val = t.val * 10000 + p.val) :
    (iblk4 V c 0 t : Vec Ideal S10000x128 .f32) (ix2 p q) = (V c main_v40 : SNx128.Idx → EReal) (ix2 r q) := by
  obtain ⟨e0, e1, -⟩ := idx_facts t
  unfold iblk4
  rw [View.read_apply]
  show V c main_v40 _ = V c main_v40 _
  refine congrArg (V c main_v40) ?_
  funext a
  apply Fin.ext
  match a with
  | ⟨0, _⟩ => show win4_0.index t (0 : Fin 2) * 10000 + 1 * p.val = r.val; rw [e0, hr]; omega
  | ⟨1, _⟩ => show win4_0.index t (1 : Fin 2) * 128 + 1 * q.val = q.val; rw [e1]; omega

/-- Entry p of point t's block of the norm column is entry 10000·t + p of the column. -/
theorem norm_blk (c : Dev nD) (t : Fin cfg4.N) (p : Fin 10000) (r : Fin 100000) (hr : r.val = t.val * 10000 + p.val) :
    (iblk4 V c 1 t : Vec Ideal S10000x1 .f32) (ix2 p (0 : Fin 1)) = (V c main_v13 : SNx1.Idx → EReal) (ix2 r (0 : Fin 1)) := by
  obtain ⟨-, -, e2, e3, -⟩ := idx_facts t
  unfold iblk4
  rw [View.read_apply]
  show V c main_v13 _ = V c main_v13 _
  refine congrArg (V c main_v13) ?_
  funext a
  apply Fin.ext
  match a with
  | ⟨0, _⟩ => show win4_1.index t (0 : Fin 2) * 10000 + 1 * p.val = r.val; rw [e2, hr]; omega
  | ⟨1, _⟩ => show win4_1.index t (1 : Fin 2) * 1 + 1 * 0 = 0; rw [e3]

/-- Entry (p, q) of point t's result block lands at entry (10000·t + p, q) of the result array. -/
theorem out_emb (t : Fin cfg4.N) (p : Fin 10000) (q : Fin 128) (r : Fin 100000) (hr : r.val = t.val * 10000 + p.val) :
    ((cfg4.win 2).blk t).view.emb (ix2 p q) = (ix2 r q : SNx128.Idx) := by
  obtain ⟨-, -, -, -, e4, e5⟩ := idx_facts t
  funext a
  apply Fin.ext
  match a with
  | ⟨0, _⟩ => show win4_2.index t (0 : Fin 2) * 10000 + 1 * p.val = r.val; rw [e4, hr]; omega
  | ⟨1, _⟩ => show win4_2.index t (1 : Fin 2) * 128 + 1 * q.val = q.val; rw [e5]; omega

/-- What point t writes back is block t of the row-scaled features the region finds. -/
theorem flushed_eq (c : Dev nD) (t : Fin cfg4.N) :
    (dat4 V c).flushed 2 t
      = ((cfg4.win 2).blk t).view.read (Elt Ideal) (scaleRows (V c main_v40) (V c main_v13)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  have hN : cfg4.N = 10 := N_4
  have ht := t.isLt
  obtain ⟨r, hr⟩ : ∃ r : Fin 100000, r.val = t.val * 10000 + p.val := ⟨⟨t.val * 10000 + p.val, by have := p.isLt; omega⟩, rfl⟩
  rw [View.read_apply, out_emb t p q r hr, scaleRows_ix2]
  refine (scale_pay4 _ _ p q).trans ?_
  rw [feats_blk V c t p q r hr, norm_blk V c t p r hr]
  rfl

/-- The ten row blocks cover the result array: row r is in point r / 10000's block. -/
theorem cover (c : Dev nD) (i : ((cfg4.win 2).arr.view.loc (c.tc : Thread nD τ)).2.ty.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 128 := (i 1).isLt
  let t : Fin cfg4.N := ⟨(i 0).val / 10000, by omega⟩
  obtain ⟨-, -, -, -, e4, e5⟩ := idx_facts t
  have e4' : win4_2.index t (0 : Fin 2) = (i 0).val / 10000 := e4
  refine ⟨t, flush4_2 t, ?_⟩
  show i ∈ ((View.whole main_v41).slice (win4_2.rect t)).set
  rw [View.set_slice_whole, Rect.mem_set_unit]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The result array after the region: the row-scaled features the region finds. -/
theorem arr (c : Dev nD) :
    (dat4 V c).arrAt 2 cfg4.N = scaleRows (V c main_v40) (V c main_v13) :=
  (dat4 V c).arrAt_eq_of_cover 2 _ (fun t _ => flushed_eq V c t) (cover c)

end Cert.KernelIdeal.Region4

end
-- ==== Proof.Region5.lean ====
/-
  Region 5, the third layer's transform, as one function of the arrays it finds.
  The grid has ten points; point t reads rows 10000·t … 10000·t + 9999 of the edge sums and of the target-degree norm
  column, the whole weights and the whole bias row, and writes the same rows of the result. Entry (r, q) of the result
  is therefore the sum over k of (sums (r, k) · norm r) · weights (k, q), plus bias q: what point
  r / 10000 stores at row r mod 10000 of its block. The ten row blocks cover the result array.
-/
import proofs.«424892_j39814346834505_3_alg».proof.Proof.Gen.KernelIdeal.Frame
import proofs.«424892_j39814346834505_3_alg».proof.Proof.Rows
import proofs.«424892_j39814346834505_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen Cert.KernelIdeal.Rows Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows (sums, norm column, result) sit at block (t, 0), the
    resident ones (weights, bias row) at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block of the edge sums is row 10000·t + p of the array. -/
theorem sums_blk (c : Dev nD) (t : Fin cfg5.N) (p : Fin 10000) (k : Fin 128) (r : Fin 100000) (hr : r.val = t.val * 10000 + p.val) :
    (iblk5 V c 0 t : Vec Ideal S10000x128 .f32) (ix2 p k) = (V c main_v51 : SNx128.Idx → EReal) (ix2 r k) := by
  obtain ⟨e0, e1, -⟩ := idx_facts t
  unfold iblk5
  rw [View.read_apply]
  show V c main_v51 _ = V c main_v51 _
  refine congrArg (V c main_v51) ?_
  funext a
  apply Fin.ext
  match a with
  | ⟨0, _⟩ => show win5_0.index t (0 : Fin 2) * 10000 + 1 * p.val = r.val; rw [e0, hr]; omega
  | ⟨1, _⟩ => show win5_0.index t (1 : Fin 2) * 128 + 1 * k.val = k.val; rw [e1]; omega

/-- Entry p of point t's block of the norm column is entry 10000·t + p of the column. -/
theorem norm_blk (c : Dev nD) (t : Fin cfg5.N) (p : Fin 10000) (r : Fin 100000) (hr : r.val = t.val * 10000 + p.val) :
    (iblk5 V c 1 t : Vec Ideal S10000x1 .f32) (ix2 p (0 : Fin 1)) = (V c main_v14 : SNx1.Idx → EReal) (ix2 r (0 : Fin 1)) := by
  obtain ⟨-, -, e2, e3, -⟩ := idx_facts t
  unfold iblk5
  rw [View.read_apply]
  show V c main_v14 _ = V c main_v14 _
  refine congrArg (V c main_v14) ?_
  funext a
  apply Fin.ext
  match a with
  | ⟨0, _⟩ => show win5_1.index t (0 : Fin 2) * 10000 + 1 * p.val = r.val; rw [e2, hr]; omega
  | ⟨1, _⟩ => show win5_1.index t (1 : Fin 2) * 1 + 1 * 0 = 0; rw [e3]

/-- Every point's block of the weights is the whole array. -/
theorem weights_blk (c : Dev nD) (t : Fin cfg5.N) (k q : Fin 128) :
    (iblk5 V c 2 t : Vec Ideal S128x128 .f32) (ix2 k q) = (V c main_v52 : Cert.Gcn.S128x128.Idx → EReal) (ix2 k q) := by
  obtain ⟨-, -, -, -, e4, e5, -⟩ := idx_facts t
  unfold iblk5
  rw [View.read_apply]
  show V c main_v52 _ = V c main_v52 _
  refine congrArg (V c main_v52) ?_
  funext a
  apply Fin.ext
  match a with
  | ⟨0, _⟩ => show win5_2.index t (0 : Fin 2) * 128 + 1 * k.val = k.val; rw [e4]; omega
  | ⟨1, _⟩ => show win5_2.index t (1 : Fin 2) * 128 + 1 * q.val = q.val; rw [e5]; omega

/-- Every point's block of the bias row is the whole row. -/
theorem bias_blk (c : Dev nD) (t : Fin cfg5.N) (q : Fin 128) :
    (iblk5 V c 3 t : Vec Ideal S1x128 .f32) (ix2 (0 : Fin 1) q) = (V c main_v54 : Cert.Gcn.S1x128.Idx → EReal) (ix2 (0 : Fin 1) q) := by
  obtain ⟨-, -, -, -, -, -, e6, e7, -⟩ := idx_facts t
  unfold iblk5
  rw [View.read_apply]
  show V c main_v54 _ = V c main_v54 _
  refine congrArg (V c main_v54) ?_
  funext a
  apply Fin.ext
  match a with
  | ⟨0, _⟩ => show win5_3.index t (0 : Fin 2) * 1 + 1 * 0 = 0; rw [e6]
  | ⟨1, _⟩ => show win5_3.index t (1 : Fin 2) * 128 + 1 * q.val = q.val; rw [e7]; omega

/-- Entry (p, q) of point t's result block lands at entry (10000·t + p, q) of the result array. -/
theorem out_emb (t : Fin cfg5.N) (p : Fin 10000) (q : Fin 128) (r : Fin 100000) (hr : r.val = t.val * 10000 + p.val) :
    ((cfg5.win 4).blk t).view.emb (ix2 p q) = (ix2 r q : SNx128.Idx) := by
  obtain ⟨-, -, -, -, -, -, -, -, e8, e9⟩ := idx_facts t
  funext a
  apply Fin.ext
  match a with
  | ⟨0, _⟩ => show win5_4.index t (0 : Fin 2) * 10000 + 1 * p.val = r.val; rw [e8, hr]; omega
  | ⟨1, _⟩ => show win5_4.index t (1 : Fin 2) * 128 + 1 * q.val = q.val; rw [e9]; omega

/-- What point t writes back is block t of the transform of the arrays the region finds. -/
theorem flushed_eq (c : Dev nD) (t : Fin cfg5.N) :
    (dat5 V c).flushed 4 t
      = ((cfg5.win 4).blk t).view.read (Elt Ideal) (denseRows (V c main_v51) (V c main_v14) (V c main_v52) (V c main_v54)) := by
  show (cfg5.win 4).cut (grid5.coords t) ((dat5 V c).after 4 t) = _
  rw [after5_4]
  unfold out5_4
  rw [View.canon_unit_zero hz]
  simp only [View.ld_unit_zero (S := S10000x128) hz, View.ld_unit_zero (S := S10000x1) hz, View.ld_unit_zero (S := Cert.KernelIdeal.S128x128) hz,
    View.ld_unit_zero (S := Cert.KernelIdeal.S1x128) hz]
  funext j
  obtain ⟨p, q, rfl⟩ : ∃ (p : Fin 10000) (q : Fin 128), j = ix2 p q := ⟨j 0, j 1, eq_ix2 j⟩
  have hN : cfg5.N = 10 := N_5
  have ht := t.isLt
  obtain ⟨r, hr⟩ : ∃ r : Fin 100000, r.val = t.val * 10000 + p.val := ⟨⟨t.val * 10000 + p.val, by have := p.isLt; omega⟩, rfl⟩
  rw [View.read_apply, out_emb t p q r hr, denseRows_ix2]
  refine (dense_pay5 _ _ _ _ p q).trans ?_
  refine congrArg₂ (· + ·) (Finset.sum_congr rfl fun k _ => ?_) (bias_blk V c t q)
  rw [sums_blk V c t p k r hr, norm_blk V c t p r hr, weights_blk V c t k q]

/-- The ten row blocks cover the result array: row r is in point r / 10000's block. -/
theorem cover (c : Dev nD) (i : ((cfg5.win 4).arr.view.loc (c.tc : Thread nD τ)).2.ty.Idx) :
    ∃ t : Fin cfg5.N, (cfg5.win 4).flush t = true ∧ i ∈ ((cfg5.win 4).blk t).view.set := by
  have hN : cfg5.N = 10 := N_5
  have hi0 : (i 0).val < 100000 := (i 0).isLt
  have hi1 : (i 1).val < 128 := (i 1).isLt
  let t : Fin cfg5.N := ⟨(i 0).val / 10000, by omega⟩
  obtain ⟨-, -, -, -, -, -, -, -, e8, e9⟩ := idx_facts t
  have e8' : win5_4.index t (0 : Fin 2) = (i 0).val / 10000 := e8
  refine ⟨t, flush5_4 t, ?_⟩
  show i ∈ ((View.whole main_v55).slice (win5_4.rect t)).set
  rw [View.set_slice_whole, Rect.mem_set_unit]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 128 ≤ (i 1).val ∧ (i 1).val < win5_4.index t (1 : Fin 2) * 128 + 128; omega

/-- The result array after the region: the transform of the arrays the region finds. -/
theorem arr (c : Dev nD) :
    (dat5 V c).arrAt 4 cfg5.N = denseRows (V c main_v51) (V c main_v14) (V c main_v52) (V c main_v54) :=
  (dat5 V c).arrAt_eq_of_cover 4 _ (fun t _ => flushed_eq V c t) (cover c)

end Cert.KernelIdeal.Region5

end
-- ==== Proof.Bridge.lean ====
/-
  The row-wise stages against the host program's text, as whole arrays on the extended reals.
  Scaling: `x · n[:, None]` written with the norm first cast to a column equals the product with the norm broadcast to
  a column and then along the rows — both are x (r, q) · n r.
  Transform: the sum over k of (a (r, k) · n r) · W (k, q), plus b q, is the host's `dot_general` of the scaled sums with
  the weights (its one contracted axis re-indexed by its coordinate) plus the bias broadcast down the rows; the clamp
  at zero is the host's maximum with a zero splat.
  Last layer: the weights and the bias padded with 64 more columns, whatever the padding value, and the result cut back
  to its first 64 columns, is the transform with the unpadded weights and bias: column q < 64 of the padded weights is
  column q of the weights, and no kept entry reads a padded column.
-/
import proofs.«424892_j39814346834505_3_alg».proof.Proof.Spec
import proofs.«424892_j39814346834505_3_alg».proof.Proof.Gen.ReferenceIdeal.Read
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.ValueIdx

namespace Cert.Gcn.Bridge

open Cert.Gcn

abbrev SN : Shape := ⟨1, ![100000]⟩
abbrev S128 : Shape := ⟨1, ![128]⟩
abbrev S64 : Shape := ⟨1, ![64]⟩
abbrev S0 : Shape := ⟨0, ![]⟩
abbrev S128x64 : Shape := ⟨2, ![128, 64]⟩
abbrev SNx64 : Shape := ⟨2, ![100000, 64]⟩
abbrev S1x64 : Shape := ⟨2, ![1, 64]⟩

/-! ## Layout operations at an entry -/

/-- An [a] array cast to a column [a, 1] reads, at (r, 0), the operand at r. -/
theorem shapeCast_a_a1_apply {α : Type} {a : ℕ} (x : (⟨1, ![a]⟩ : Shape).Idx → α) (h : (⟨1, ![a]⟩ : Shape).ShapeCasts ⟨2, ![a, 1]⟩)
    (r : Fin a) : shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

/-- A norm vector broadcast to a column and then along the rows reads, at (r, q), its entry r. -/
theorem normCol_apply {α : Type} (n : SN.Idx → α) (h0 : SN.BroadcastsInDim SNx1 (![0] : Fin 1 → Fin 2))
    (h1 : SNx1.BroadcastsInDim SNx128 (![0, 1] : Fin 2 → Fin 2)) (r : Fin 100000) (q : Fin 128) :
    broadcastInDim SNx128 ![0, 1] h1 (broadcastInDim SNx1 ![0] h0 n) (ix2 r q) = n (ix1 r) := by
  refine (broadcastInDim_apply _ h1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans ?_
  exact broadcastInDim_apply _ h0 n (ix2 r (0 : Fin 1)) (ix1 r) (fun a => match a with
    | ⟨0, _⟩ => by show r.val = if (100000 : Nat) = 1 then 0 else r.val; rw [if_neg (by decide)])

/-- A 128-entry bias broadcast to a row and then down the rows reads, at (r, q), its entry q. -/
theorem biasRow_apply {α : Type} (b : S128.Idx → α) (h2 : S128.BroadcastsInDim S1x128 (![1] : Fin 1 → Fin 2))
    (h3 : S1x128.BroadcastsInDim SNx128 (![0, 1] : Fin 2 → Fin 2)) (r : Fin 100000) (q : Fin 128) :
    broadcastInDim SNx128 ![0, 1] h3 (broadcastInDim S1x128 ![1] h2 b) (ix2 r q) = b (ix1 q) := by
  refine (broadcastInDim_apply _ h3 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ h2 b (ix2 (0 : Fin 1) q) (ix1 q) (fun a => match a with
    | ⟨0, _⟩ => by show q.val = if (128 : Nat) = 1 then 0 else q.val; rw [if_neg (by decide)])

/-- The same for the last layer's 64-entry bias. -/
theorem biasRow64_apply {α : Type} (b : S64.Idx → α) (h2 : S64.BroadcastsInDim S1x64 (![1] : Fin 1 → Fin 2))
    (h3 : S1x64.BroadcastsInDim SNx64 (![0, 1] : Fin 2 → Fin 2)) (r : Fin 100000) (q : Fin 64) :
    broadcastInDim SNx64 ![0, 1] h3 (broadcastInDim S1x64 ![1] h2 b) (ix2 r q) = b (ix1 q) := by
  refine (broadcastInDim_apply _ h3 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ h2 b (ix2 (0 : Fin 1) q) (ix1 q) (fun a => match a with
    | ⟨0, _⟩ => by show q.val = if (64 : Nat) = 1 then 0 else q.val; rw [if_neg (by decide)])

/-! ## The host's matrix products as sums over `Fin 128` -/

/-- The host's [100000, 128] × [128, 128] product at (r, q): the sum over k of left (r, k) times right (k, q). -/
theorem dot128_apply (y : FVec Ideal SNx128 .f32) (w : FVec Ideal S128x128 .f32) (r : Fin 100000) (q : Fin 128) :
    Host.dotGeneral (F := Ideal) (φ₁ := .f32) (φ₂ := .f32) Cert.ReferenceIdeal.dot_S100000x128_S128x128_S100000x128_1_0_0_1_n_n none y w (ix2 r q) = ∑ k : Fin 128, y (ix2 r k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.Read.lhs_main_v29_0 _ _
    | ⟨1, _⟩ => exact (Cert.ReferenceIdeal.Read.lhs_main_v29_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (Cert.ReferenceIdeal.Read.rhs_main_v29_0 _ _).trans hk
    | ⟨1, _⟩ => exact Cert.ReferenceIdeal.Read.rhs_main_v29_1 _ _)
  rw [el, er]

/-- The host's [100000, 128] × [128, 64] product at (r, q): the sum over k of left (r, k) times right (k, q). -/
theorem dot64_apply (y : FVec Ideal SNx128 .f32) (w : FVec Ideal S128x64 .f32) (r : Fin 100000) (q : Fin 64) :
    Host.dotGeneral (F := Ideal) (φ₁ := .f32) (φ₂ := .f32) Cert.ReferenceIdeal.dot_S100000x128_S128x64_S100000x64_1_0_0_1_n_n none y w (ix2 r q) = ∑ k : Fin 128, y (ix2 r k) * w (ix2 k q) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.Read.lhs_main_v71_0 _ _
    | ⟨1, _⟩ => exact (Cert.ReferenceIdeal.Read.lhs_main_v71_1 _ _).trans hk)
  have er : Cert.ReferenceIdeal.dot_S100000x128_S128x64_S100000x64_1_0_0_1_n_n.rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.Read.rhs_main_v71_0 _ _).trans hk
    | ⟨1, _⟩ => exact Cert.ReferenceIdeal.Read.rhs_main_v71_1 _ _)
  rw [el, er]

/-! ## The three stages -/

/-- Scaling the rows by a norm given as a cast column is the product with the norm broadcast along the rows. -/
theorem scale_eq (x : FVec Ideal SNx128 .f32) (n : FVec Ideal SN .f32) (hc : SN.ShapeCasts SNx1)
    (h0 : SN.BroadcastsInDim SNx1 (![0] : Fin 1 → Fin 2)) (h1 : SNx1.BroadcastsInDim SNx128 (![0, 1] : Fin 2 → Fin 2)) :
    scaleRows x (shapeCast SNx1 n hc)
      = mulf (F := Ideal) (φ := .f32) x (broadcastInDim SNx128 ![0, 1] h1 (broadcastInDim SNx1 ![0] h0 n)) := by
  funext i
  obtain ⟨r, q, rfl⟩ : ∃ (r : Fin 100000) (q : Fin 128), i = ix2 r q := ⟨i 0, i 1, eq_ix2 i⟩
  rw [scaleRows_ix2, shapeCast_a_a1_apply]
  refine Eq.symm ((mulf_apply _ _ _).trans ?_)
  rw [normCol_apply]

/-- The transform with the clamp is the host's text: product with the weights, bias added, maximum with zero. -/
theorem denseRelu_eq (a : FVec Ideal SNx128 .f32) (n : FVec Ideal SN .f32) (w : FVec Ideal S128x128 .f32) (b : FVec Ideal S128 .f32)
    (hc : SN.ShapeCasts SNx1) (hr : S128.ShapeCasts S1x128)
    (h0 : SN.BroadcastsInDim SNx1 (![0] : Fin 1 → Fin 2)) (h1 : SNx1.BroadcastsInDim SNx128 (![0, 1] : Fin 2 → Fin 2))
    (h2 : S128.BroadcastsInDim S1x128 (![1] : Fin 1 → Fin 2)) (h3 : S1x128.BroadcastsInDim SNx128 (![0, 1] : Fin 2 → Fin 2))
    (h4 : S0.BroadcastsInDim SNx128 (![] : Fin 0 → Fin 2)) :
    denseReluRows a (shapeCast SNx1 n hc) w (shapeCast S1x128 b hr)
      = maximumf (F := Ideal) (φ := .f32)
          (addf (Host.dotGeneral Cert.ReferenceIdeal.dot_S100000x128_S128x128_S100000x128_1_0_0_1_n_n none
              (mulf a (broadcastInDim SNx128 ![0, 1] h1 (broadcastInDim SNx1 ![0] h0 n))) w)
            (broadcastInDim SNx128 ![0, 1] h3 (broadcastInDim S1x128 ![1] h2 b)))
          (broadcastInDim SNx128 ![] h4 (constant (F := Ideal) S0 .f32 0x00000000#32)) := by
  funext i
  obtain ⟨r, q, rfl⟩ : ∃ (r : Fin 100000) (q : Fin 128), i = ix2 r q := ⟨i 0, i 1, eq_ix2 i⟩
  rw [denseReluRows_ix2]
  refine Eq.symm ((maximumf_apply _ _ _).trans ?_)
  refine congrArg₂ max ?_ ?_
  · refine (addf_apply _ _ _).trans ?_
    refine congrArg₂ (· + ·) ?_ ?_
    · refine (dot128_apply _ _ r q).trans ?_
      refine Finset.sum_congr rfl fun k _ => ?_
      refine congrArg (· * w (ix2 k q)) ?_
      refine (mulf_apply _ _ _).trans ?_
      rw [normCol_apply, shapeCast_a_a1_apply]
    · rw [biasRow_apply, shapeCast_a_1a_apply]
  · refine (broadcastInDim_apply _ h4 _ (ix2 r q) ix0 (fun a => a.elim0)).trans ?_
    exact Ideal.ofBits_zero_f32

/-- The last transform over weights and bias padded by 64 columns, cut back to 64 columns, is the host's text over
    the unpadded weights and bias. -/
theorem denseLast_eq (a : FVec Ideal SNx128 .f32) (n : FVec Ideal SN .f32) (w : FVec Ideal S128x64 .f32) (b : FVec Ideal S64 .f32)
    (pw pb : FVec Ideal S0 .f32)
    (hc : SN.ShapeCasts SNx1) (hr : S128.ShapeCasts S1x128)
    (hpw : S128x64.Pads (![0, 0] : Fin 2 → Nat) ![0, 64] ![0, 0] S128x128) (hpb : S64.Pads (![0] : Fin 1 → Nat) ![64] ![0] S128)
    (hu : 0 < S0.numel) (hs : SNx128.Slices (![0, 0] : Fin 2 → Nat) SNx64)
    (h0 : SN.BroadcastsInDim SNx1 (![0] : Fin 1 → Fin 2)) (h1 : SNx1.BroadcastsInDim SNx128 (![0, 1] : Fin 2 → Fin 2))
    (h2 : S64.BroadcastsInDim S1x64 (![1] : Fin 1 → Fin 2)) (h3 : S1x64.BroadcastsInDim SNx64 (![0, 1] : Fin 2 → Fin 2)) :
    extractStridedSlice SNx64 ![0, 0]
        (denseRows a (shapeCast SNx1 n hc) (pad S128x128 ![0, 0] ![0, 64] ![0, 0] w pw hpw hu)
          (shapeCast S1x128 (pad S128 ![0] ![64] ![0] b pb hpb hu) hr)) hs
      = addf (F := Ideal) (φ := .f32)
          (Host.dotGeneral Cert.ReferenceIdeal.dot_S100000x128_S128x64_S100000x64_1_0_0_1_n_n none
            (mulf a (broadcastInDim SNx128 ![0, 1] h1 (broadcastInDim SNx1 ![0] h0 n))) w)
          (broadcastInDim SNx64 ![0, 1] h3 (broadcastInDim S1x64 ![1] h2 b)) := by
  funext i
  obtain ⟨r, q, rfl⟩ : ∃ (r : Fin 100000) (q : Fin 64), i = ix2 r q := ⟨i 0, i 1, eq_ix2 i⟩
  have hq : q.val < 128 := by have := q.isLt; omega
  refine (extractStridedSlice_apply _ _ hs (ix2 r q) (ix2 r (⟨q.val, hq⟩ : Fin 128)) (fun ax => match ax with
    | ⟨0, _⟩ => by show r.val = 0 + r.val; omega
    | ⟨1, _⟩ => by show q.val = 0 + q.val; omega)).trans ?_
  rw [denseRows_ix2]
  refine Eq.symm ((addf_apply _ _ _).trans ?_)
  refine congrArg₂ (· + ·) ?_ ?_
  · refine (dot64_apply _ _ r q).trans ?_
    refine Finset.sum_congr rfl fun k _ => ?_
    refine congrArg₂ (· * ·) ?_ ?_
    · refine (mulf_apply _ _ _).trans ?_
      rw [normCol_apply, shapeCast_a_a1_apply]
    · refine Eq.symm (pad_apply_of_inside _ _ _ w pw hpw hu (ix2 k (⟨q.val, hq⟩ : Fin 128)) (ix2 k q) (fun ax => match ax with
        | ⟨0, _⟩ => by show k.val = 0 + k.val * (0 + 1); omega
        | ⟨1, _⟩ => by show q.val = 0 + q.val * (0 + 1); omega))
  · rw [biasRow64_apply, shapeCast_a_1a_apply]
    refine Eq.symm (pad_apply_of_inside _ _ _ b pb hpb hu (ix1 (⟨q.val, hq⟩ : Fin 128)) (ix1 q) (fun ax => match ax with
      | ⟨0, _⟩ => by show q.val = 0 + q.val * (0 + 1); omega))

end Cert.Gcn.Bridge

end
-- ==== Proof.Kept.lean ====
/-
  What each boundary of the kernel program's @main still holds of a buffer written earlier (or of an argument, written
  never). A buffer is written once. A stretch of host lines leaves every buffer it does not write; a region leaves every
  buffer that is none of its arrays, and an array it only reads through an input window.
-/
import proofs.«424892_j39814346834505_3_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Kept

open Cert.KernelIdeal Cert.KernelIdeal.Gen

variable {F : FTy → Type} [FloatOps F]
variable (m : (ℓ : Loc nD τ sig) → Buf (Elt F) ℓ) (ρ : Dev nD → PrngReg) (c : Dev nD)

/-- A buffer that a stretch of host lines does not write holds after the stretch what it held before. -/
macro "host_keep" : tactic => `(tactic| exact StableHlo.after_of_forall_not_mem _ _ (List.forall_iff_forall_mem.mp (by
    simp only [hostOps0, hostOps1, hostOps3, hostOps5, hostOps5_1, hostOps5_2, hostOps5_3, hostOps5_4, hostOps6,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ### `main_arg0` -/
theorem W1_arg0 : W1 m ρ c (Proc.devRef .tc main_arg0) = m ((c : Thread nD τ).loc main_arg0) := by host_keep

/-! ### `main_arg1` -/
theorem W1_arg1 : W1 m ρ c (Proc.devRef .tc main_arg1) = m ((c : Thread nD τ).loc main_arg1) := by host_keep
theorem W2_arg1 : W2 m ρ c (Proc.devRef .tc main_arg1) = m ((c : Thread nD τ).loc main_arg1) :=
  (W2_of_ne m ρ c main_arg1 (by decide)).trans (W1_arg1 m ρ c)
theorem W3_arg1 : W3 m ρ c (Proc.devRef .tc main_arg1) = m ((c : Thread nD τ).loc main_arg1) :=
  (show W3 m ρ c (Proc.devRef .tc main_arg1) = W2 m ρ c (Proc.devRef .tc main_arg1) by host_keep).trans (W2_arg1 m ρ c)
theorem W4_arg1 : W4 m ρ c (Proc.devRef .tc main_arg1) = m ((c : Thread nD τ).loc main_arg1) :=
  (W4_of_ne m ρ c main_arg1 (by decide)).trans (W3_arg1 m ρ c)
theorem W5_arg1 : W5 m ρ c (Proc.devRef .tc main_arg1) = m ((c : Thread nD τ).loc main_arg1) :=
  (W5_of_ne m ρ c main_arg1 (by decide)).trans (W4_arg1 m ρ c)
theorem W6_arg1 : W6 m ρ c (Proc.devRef .tc main_arg1) = m ((c : Thread nD τ).loc main_arg1) :=
  (show W6 m ρ c (Proc.devRef .tc main_arg1) = W5 m ρ c (Proc.devRef .tc main_arg1) by host_keep).trans (W5_arg1 m ρ c)
theorem W7_arg1 : W7 m ρ c (Proc.devRef .tc main_arg1) = m ((c : Thread nD τ).loc main_arg1) :=
  (W7_of_ne m ρ c main_arg1 (by decide)).trans (W6_arg1 m ρ c)
theorem W8_arg1 : W8 m ρ c (Proc.devRef .tc main_arg1) = m ((c : Thread nD τ).loc main_arg1) :=
  (W8_of_ne m ρ c main_arg1 (by decide)).trans (W7_arg1 m ρ c)

/-! ### `main_arg2` -/
theorem W1_arg2 : W1 m ρ c (Proc.devRef .tc main_arg2) = m ((c : Thread nD τ).loc main_arg2) := by host_keep
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (show W3 m ρ c (Proc.devRef .tc main_arg2) = W2 m ρ c (Proc.devRef .tc main_arg2) by host_keep).trans (W2_arg2 m ρ c)
theorem W4_arg2 : W4 m ρ c (Proc.devRef .tc main_arg2) = m ((c : Thread nD τ).loc main_arg2) :=
  (W4_of_ne m ρ c main_arg2 (by decide)).trans (W3_arg2 m ρ c)
theorem W5_arg2 : W5 m ρ c (Proc.devRef .tc main_arg2) = m ((c : Thread nD τ).loc main_arg2) :=
  (W5_of_ne m ρ c main_arg2 (by decide)).trans (W4_arg2 m ρ c)
theorem W6_arg2 : W6 m ρ c (Proc.devRef .tc main_arg2) = m ((c : Thread nD τ).loc main_arg2) :=
  (show W6 m ρ c (Proc.devRef .tc main_arg2) = W5 m ρ c (Proc.devRef .tc main_arg2) by host_keep).trans (W5_arg2 m ρ c)
theorem W7_arg2 : W7 m ρ c (Proc.devRef .tc main_arg2) = m ((c : Thread nD τ).loc main_arg2) :=
  (W7_of_ne m ρ c main_arg2 (by decide)).trans (W6_arg2 m ρ c)
theorem W8_arg2 : W8 m ρ c (Proc.devRef .tc main_arg2) = m ((c : Thread nD τ).loc main_arg2) :=
  (W8_of_ne m ρ c main_arg2 (by decide)).trans (W7_arg2 m ρ c)

/-! ### `main_arg3` -/
theorem W1_arg3 : W1 m ρ c (Proc.devRef .tc main_arg3) = m ((c : Thread nD τ).loc main_arg3) := by host_keep
theorem W2_arg3 : W2 m ρ c (Proc.devRef .tc main_arg3) = m ((c : Thread nD τ).loc main_arg3) :=
  (W2_of_ne m ρ c main_arg3 (by decide)).trans (W1_arg3 m ρ c)
theorem W3_arg3 : W3 m ρ c (Proc.devRef .tc main_arg3) = m ((c : Thread nD τ).loc main_arg3) :=
  (show W3 m ρ c (Proc.devRef .tc main_arg3) = W2 m ρ c (Proc.devRef .tc main_arg3) by host_keep).trans (W2_arg3 m ρ c)

/-! ### `main_arg4` -/
theorem W1_arg4 : W1 m ρ c (Proc.devRef .tc main_arg4) = m ((c : Thread nD τ).loc main_arg4) := by host_keep
theorem W2_arg4 : W2 m ρ c (Proc.devRef .tc main_arg4) = m ((c : Thread nD τ).loc main_arg4) :=
  (W2_of_ne m ρ c main_arg4 (by decide)).trans (W1_arg4 m ρ c)

/-! ### `main_arg5` -/
theorem W1_arg5 : W1 m ρ c (Proc.devRef .tc main_arg5) = m ((c : Thread nD τ).loc main_arg5) := by host_keep
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) :=
  (show W3 m ρ c (Proc.devRef .tc main_arg5) = W2 m ρ c (Proc.devRef .tc main_arg5) by host_keep).trans (W2_arg5 m ρ c)
theorem W4_arg5 : W4 m ρ c (Proc.devRef .tc main_arg5) = m ((c : Thread nD τ).loc main_arg5) :=
  (W4_of_ne m ρ c main_arg5 (by decide)).trans (W3_arg5 m ρ c)
theorem W5_arg5 : W5 m ρ c (Proc.devRef .tc main_arg5) = m ((c : Thread nD τ).loc main_arg5) :=
  (W5_of_ne m ρ c main_arg5 (by decide)).trans (W4_arg5 m ρ c)
theorem W6_arg5 : W6 m ρ c (Proc.devRef .tc main_arg5) = m ((c : Thread nD τ).loc main_arg5) :=
  (show W6 m ρ c (Proc.devRef .tc main_arg5) = W5 m ρ c (Proc.devRef .tc main_arg5) by host_keep).trans (W5_arg5 m ρ c)

/-! ### `main_arg6` -/
theorem W1_arg6 : W1 m ρ c (Proc.devRef .tc main_arg6) = m ((c : Thread nD τ).loc main_arg6) := by host_keep
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (show W3 m ρ c (Proc.devRef .tc main_arg6) = W2 m ρ c (Proc.devRef .tc main_arg6) by host_keep).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W5_arg6 : W5 m ρ c (Proc.devRef .tc main_arg6) = m ((c : Thread nD τ).loc main_arg6) :=
  (W5_of_ne m ρ c main_arg6 (by decide)).trans (W4_arg6 m ρ c)

/-! ### `main_arg7` -/
theorem W1_arg7 : W1 m ρ c (Proc.devRef .tc main_arg7) = m ((c : Thread nD τ).loc main_arg7) := by host_keep
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (show W3 m ρ c (Proc.devRef .tc main_arg7) = W2 m ρ c (Proc.devRef .tc main_arg7) by host_keep).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) :=
  (W5_of_ne m ρ c main_arg7 (by decide)).trans (W4_arg7 m ρ c)
theorem W6_arg7 : W6 m ρ c (Proc.devRef .tc main_arg7) = m ((c : Thread nD τ).loc main_arg7) :=
  (show W6 m ρ c (Proc.devRef .tc main_arg7) = W5 m ρ c (Proc.devRef .tc main_arg7) by host_keep).trans (W5_arg7 m ρ c)
theorem W7_arg7 : W7 m ρ c (Proc.devRef .tc main_arg7) = m ((c : Thread nD τ).loc main_arg7) :=
  (W7_of_ne m ρ c main_arg7 (by decide)).trans (W6_arg7 m ρ c)
theorem W8_arg7 : W8 m ρ c (Proc.devRef .tc main_arg7) = m ((c : Thread nD τ).loc main_arg7) :=
  (W8_of_ne m ρ c main_arg7 (by decide)).trans (W7_arg7 m ρ c)
theorem W9_arg7 : W9 m ρ c (Proc.devRef .tc main_arg7) = m ((c : Thread nD τ).loc main_arg7) :=
  (show W9 m ρ c (Proc.devRef .tc main_arg7) = W8 m ρ c (Proc.devRef .tc main_arg7) by host_keep).trans (W8_arg7 m ρ c)

/-! ### `main_arg8` -/
theorem W1_arg8 : W1 m ρ c (Proc.devRef .tc main_arg8) = m ((c : Thread nD τ).loc main_arg8) := by host_keep
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (show W3 m ρ c (Proc.devRef .tc main_arg8) = W2 m ρ c (Proc.devRef .tc main_arg8) by host_keep).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W5_arg8 : W5 m ρ c (Proc.devRef .tc main_arg8) = m ((c : Thread nD τ).loc main_arg8) :=
  (W5_of_ne m ρ c main_arg8 (by decide)).trans (W4_arg8 m ρ c)
theorem W6_arg8 : W6 m ρ c (Proc.devRef .tc main_arg8) = m ((c : Thread nD τ).loc main_arg8) :=
  (show W6 m ρ c (Proc.devRef .tc main_arg8) = W5 m ρ c (Proc.devRef .tc main_arg8) by host_keep).trans (W5_arg8 m ρ c)
theorem W7_arg8 : W7 m ρ c (Proc.devRef .tc main_arg8) = m ((c : Thread nD τ).loc main_arg8) :=
  (W7_of_ne m ρ c main_arg8 (by decide)).trans (W6_arg8 m ρ c)
theorem W8_arg8 : W8 m ρ c (Proc.devRef .tc main_arg8) = m ((c : Thread nD τ).loc main_arg8) :=
  (W8_of_ne m ρ c main_arg8 (by decide)).trans (W7_arg8 m ρ c)
theorem W9_arg8 : W9 m ρ c (Proc.devRef .tc main_arg8) = m ((c : Thread nD τ).loc main_arg8) :=
  (show W9 m ρ c (Proc.devRef .tc main_arg8) = W8 m ρ c (Proc.devRef .tc main_arg8) by host_keep).trans (W8_arg8 m ρ c)
theorem W10_arg8 : W10 m ρ c (Proc.devRef .tc main_arg8) = m ((c : Thread nD τ).loc main_arg8) :=
  (show W10 m ρ c (Proc.devRef .tc main_arg8) = W9 m ρ c (Proc.devRef .tc main_arg8) by host_keep).trans (W9_arg8 m ρ c)
theorem W11_arg8 : W11 m ρ c (Proc.devRef .tc main_arg8) = m ((c : Thread nD τ).loc main_arg8) :=
  (show W11 m ρ c (Proc.devRef .tc main_arg8) = W10 m ρ c (Proc.devRef .tc main_arg8) by host_keep).trans (W10_arg8 m ρ c)

/-! ### `main_v13` -/
theorem W2_v13 : W2 m ρ c (Proc.devRef .tc main_v13) = W1 m ρ c (Proc.devRef .tc main_v13) :=
  ((W2_arr m ρ c 1).trans (((dat0 (V1 m ρ) c).arrAt_in 1 rfl _).trans (A_eq0 (V1 m ρ) c 1)))
theorem W3_v13 : W3 m ρ c (Proc.devRef .tc main_v13) = W1 m ρ c (Proc.devRef .tc main_v13) :=
  (show W3 m ρ c (Proc.devRef .tc main_v13) = W2 m ρ c (Proc.devRef .tc main_v13) by host_keep).trans (W2_v13 m ρ c)
theorem W4_v13 : W4 m ρ c (Proc.devRef .tc main_v13) = W1 m ρ c (Proc.devRef .tc main_v13) :=
  (W4_of_ne m ρ c main_v13 (by decide)).trans (W3_v13 m ρ c)
theorem W5_v13 : W5 m ρ c (Proc.devRef .tc main_v13) = W1 m ρ c (Proc.devRef .tc main_v13) :=
  ((W5_arr m ρ c 1).trans (((dat2 (V4 m ρ) c).arrAt_in 1 rfl _).trans (A_eq2 (V4 m ρ) c 1))).trans (W4_v13 m ρ c)
theorem W6_v13 : W6 m ρ c (Proc.devRef .tc main_v13) = W1 m ρ c (Proc.devRef .tc main_v13) :=
  (show W6 m ρ c (Proc.devRef .tc main_v13) = W5 m ρ c (Proc.devRef .tc main_v13) by host_keep).trans (W5_v13 m ρ c)
theorem W7_v13 : W7 m ρ c (Proc.devRef .tc main_v13) = W1 m ρ c (Proc.devRef .tc main_v13) :=
  (W7_of_ne m ρ c main_v13 (by decide)).trans (W6_v13 m ρ c)

/-! ### `main_v14` -/
theorem W2_v14 : W2 m ρ c (Proc.devRef .tc main_v14) = W1 m ρ c (Proc.devRef .tc main_v14) :=
  (W2_of_ne m ρ c main_v14 (by decide))
theorem W3_v14 : W3 m ρ c (Proc.devRef .tc main_v14) = W1 m ρ c (Proc.devRef .tc main_v14) :=
  (show W3 m ρ c (Proc.devRef .tc main_v14) = W2 m ρ c (Proc.devRef .tc main_v14) by host_keep).trans (W2_v14 m ρ c)
theorem W4_v14 : W4 m ρ c (Proc.devRef .tc main_v14) = W1 m ρ c (Proc.devRef .tc main_v14) :=
  ((W4_arr m ρ c 1).trans (((dat1 (V3 m ρ) c).arrAt_in 1 rfl _).trans (A_eq1 (V3 m ρ) c 1))).trans (W3_v14 m ρ c)
theorem W5_v14 : W5 m ρ c (Proc.devRef .tc main_v14) = W1 m ρ c (Proc.devRef .tc main_v14) :=
  (W5_of_ne m ρ c main_v14 (by decide)).trans (W4_v14 m ρ c)
theorem W6_v14 : W6 m ρ c (Proc.devRef .tc main_v14) = W1 m ρ c (Proc.devRef .tc main_v14) :=
  (show W6 m ρ c (Proc.devRef .tc main_v14) = W5 m ρ c (Proc.devRef .tc main_v14) by host_keep).trans (W5_v14 m ρ c)
theorem W7_v14 : W7 m ρ c (Proc.devRef .tc main_v14) = W1 m ρ c (Proc.devRef .tc main_v14) :=
  ((W7_arr m ρ c 1).trans (((dat3 (V6 m ρ) c).arrAt_in 1 rfl _).trans (A_eq3 (V6 m ρ) c 1))).trans (W6_v14 m ρ c)
theorem W8_v14 : W8 m ρ c (Proc.devRef .tc main_v14) = W1 m ρ c (Proc.devRef .tc main_v14) :=
  (W8_of_ne m ρ c main_v14 (by decide)).trans (W7_v14 m ρ c)
theorem W9_v14 : W9 m ρ c (Proc.devRef .tc main_v14) = W1 m ρ c (Proc.devRef .tc main_v14) :=
  (show W9 m ρ c (Proc.devRef .tc main_v14) = W8 m ρ c (Proc.devRef .tc main_v14) by host_keep).trans (W8_v14 m ρ c)
theorem W10_v14 : W10 m ρ c (Proc.devRef .tc main_v14) = W1 m ρ c (Proc.devRef .tc main_v14) :=
  (show W10 m ρ c (Proc.devRef .tc main_v14) = W9 m ρ c (Proc.devRef .tc main_v14) by host_keep).trans (W9_v14 m ρ c)
theorem W11_v14 : W11 m ρ c (Proc.devRef .tc main_v14) = W1 m ρ c (Proc.devRef .tc main_v14) :=
  (show W11 m ρ c (Proc.devRef .tc main_v14) = W10 m ρ c (Proc.devRef .tc main_v14) by host_keep).trans (W10_v14 m ρ c)
theorem W12_v14 : W12 m ρ c (Proc.devRef .tc main_v14) = W1 m ρ c (Proc.devRef .tc main_v14) :=
  (show W12 m ρ c (Proc.devRef .tc main_v14) = W11 m ρ c (Proc.devRef .tc main_v14) by host_keep).trans (W11_v14 m ρ c)
theorem W13_v14 : W13 m ρ c (Proc.devRef .tc main_v14) = W1 m ρ c (Proc.devRef .tc main_v14) :=
  (show W13 m ρ c (Proc.devRef .tc main_v14) = W12 m ρ c (Proc.devRef .tc main_v14) by host_keep).trans (W12_v14 m ρ c)

/-! ### `main_v27` -/
theorem W5_v27 : W5 m ρ c (Proc.devRef .tc main_v27) = W4 m ρ c (Proc.devRef .tc main_v27) :=
  ((W5_arr m ρ c 0).trans (((dat2 (V4 m ρ) c).arrAt_in 0 rfl _).trans (A_eq2 (V4 m ρ) c 0)))
theorem W6_v27 : W6 m ρ c (Proc.devRef .tc main_v27) = W4 m ρ c (Proc.devRef .tc main_v27) :=
  (show W6 m ρ c (Proc.devRef .tc main_v27) = W5 m ρ c (Proc.devRef .tc main_v27) by host_keep).trans (W5_v27 m ρ c)
theorem W7_v27 : W7 m ρ c (Proc.devRef .tc main_v27) = W4 m ρ c (Proc.devRef .tc main_v27) :=
  (W7_of_ne m ρ c main_v27 (by decide)).trans (W6_v27 m ρ c)
theorem W8_v27 : W8 m ρ c (Proc.devRef .tc main_v27) = W4 m ρ c (Proc.devRef .tc main_v27) :=
  (W8_of_ne m ρ c main_v27 (by decide)).trans (W7_v27 m ρ c)
theorem W9_v27 : W9 m ρ c (Proc.devRef .tc main_v27) = W4 m ρ c (Proc.devRef .tc main_v27) :=
  (show W9 m ρ c (Proc.devRef .tc main_v27) = W8 m ρ c (Proc.devRef .tc main_v27) by host_keep).trans (W8_v27 m ρ c)
theorem W10_v27 : W10 m ρ c (Proc.devRef .tc main_v27) = W4 m ρ c (Proc.devRef .tc main_v27) :=
  (show W10 m ρ c (Proc.devRef .tc main_v27) = W9 m ρ c (Proc.devRef .tc main_v27) by host_keep).trans (W9_v27 m ρ c)
theorem W11_v27 : W11 m ρ c (Proc.devRef .tc main_v27) = W4 m ρ c (Proc.devRef .tc main_v27) :=
  (show W11 m ρ c (Proc.devRef .tc main_v27) = W10 m ρ c (Proc.devRef .tc main_v27) by host_keep).trans (W10_v27 m ρ c)
theorem W12_v27 : W12 m ρ c (Proc.devRef .tc main_v27) = W4 m ρ c (Proc.devRef .tc main_v27) :=
  (show W12 m ρ c (Proc.devRef .tc main_v27) = W11 m ρ c (Proc.devRef .tc main_v27) by host_keep).trans (W11_v27 m ρ c)
theorem W13_v27 : W13 m ρ c (Proc.devRef .tc main_v27) = W4 m ρ c (Proc.devRef .tc main_v27) :=
  (show W13 m ρ c (Proc.devRef .tc main_v27) = W12 m ρ c (Proc.devRef .tc main_v27) by host_keep).trans (W12_v27 m ρ c)
theorem W14_v27 : W14 m ρ c (Proc.devRef .tc main_v27) = W4 m ρ c (Proc.devRef .tc main_v27) :=
  (W14_of_ne m ρ c main_v27 (by decide)).trans (W13_v27 m ρ c)
theorem W15_v27 : W15 m ρ c (Proc.devRef .tc main_v27) = W4 m ρ c (Proc.devRef .tc main_v27) :=
  (show W15 m ρ c (Proc.devRef .tc main_v27) = W14 m ρ c (Proc.devRef .tc main_v27) by host_keep).trans (W14_v27 m ρ c)

/-! ### `main_v40` -/
theorem W8_v40 : W8 m ρ c (Proc.devRef .tc main_v40) = W7 m ρ c (Proc.devRef .tc main_v40) :=
  ((W8_arr m ρ c 0).trans (((dat4 (V7 m ρ) c).arrAt_in 0 rfl _).trans (A_eq4 (V7 m ρ) c 0)))
theorem W9_v40 : W9 m ρ c (Proc.devRef .tc main_v40) = W7 m ρ c (Proc.devRef .tc main_v40) :=
  (show W9 m ρ c (Proc.devRef .tc main_v40) = W8 m ρ c (Proc.devRef .tc main_v40) by host_keep).trans (W8_v40 m ρ c)
theorem W10_v40 : W10 m ρ c (Proc.devRef .tc main_v40) = W7 m ρ c (Proc.devRef .tc main_v40) :=
  (show W10 m ρ c (Proc.devRef .tc main_v40) = W9 m ρ c (Proc.devRef .tc main_v40) by host_keep).trans (W9_v40 m ρ c)
theorem W11_v40 : W11 m ρ c (Proc.devRef .tc main_v40) = W7 m ρ c (Proc.devRef .tc main_v40) :=
  (show W11 m ρ c (Proc.devRef .tc main_v40) = W10 m ρ c (Proc.devRef .tc main_v40) by host_keep).trans (W10_v40 m ρ c)
theorem W12_v40 : W12 m ρ c (Proc.devRef .tc main_v40) = W7 m ρ c (Proc.devRef .tc main_v40) :=
  (show W12 m ρ c (Proc.devRef .tc main_v40) = W11 m ρ c (Proc.devRef .tc main_v40) by host_keep).trans (W11_v40 m ρ c)
theorem W13_v40 : W13 m ρ c (Proc.devRef .tc main_v40) = W7 m ρ c (Proc.devRef .tc main_v40) :=
  (show W13 m ρ c (Proc.devRef .tc main_v40) = W12 m ρ c (Proc.devRef .tc main_v40) by host_keep).trans (W12_v40 m ρ c)
theorem W14_v40 : W14 m ρ c (Proc.devRef .tc main_v40) = W7 m ρ c (Proc.devRef .tc main_v40) :=
  (W14_of_ne m ρ c main_v40 (by decide)).trans (W13_v40 m ρ c)
theorem W15_v40 : W15 m ρ c (Proc.devRef .tc main_v40) = W7 m ρ c (Proc.devRef .tc main_v40) :=
  (show W15 m ρ c (Proc.devRef .tc main_v40) = W14 m ρ c (Proc.devRef .tc main_v40) by host_keep).trans (W14_v40 m ρ c)

/-! ### `main_v51` -/
theorem W10_v51 : W10 m ρ c (Proc.devRef .tc main_v51) = W9 m ρ c (Proc.devRef .tc main_v51) :=
  (show W10 m ρ c (Proc.devRef .tc main_v51) = W9 m ρ c (Proc.devRef .tc main_v51) by host_keep)
theorem W11_v51 : W11 m ρ c (Proc.devRef .tc main_v51) = W9 m ρ c (Proc.devRef .tc main_v51) :=
  (show W11 m ρ c (Proc.devRef .tc main_v51) = W10 m ρ c (Proc.devRef .tc main_v51) by host_keep).trans (W10_v51 m ρ c)
theorem W12_v51 : W12 m ρ c (Proc.devRef .tc main_v51) = W9 m ρ c (Proc.devRef .tc main_v51) :=
  (show W12 m ρ c (Proc.devRef .tc main_v51) = W11 m ρ c (Proc.devRef .tc main_v51) by host_keep).trans (W11_v51 m ρ c)
theorem W13_v51 : W13 m ρ c (Proc.devRef .tc main_v51) = W9 m ρ c (Proc.devRef .tc main_v51) :=
  (show W13 m ρ c (Proc.devRef .tc main_v51) = W12 m ρ c (Proc.devRef .tc main_v51) by host_keep).trans (W12_v51 m ρ c)

/-! ### `main_v52` -/
theorem W11_v52 : W11 m ρ c (Proc.devRef .tc main_v52) = W10 m ρ c (Proc.devRef .tc main_v52) :=
  (show W11 m ρ c (Proc.devRef .tc main_v52) = W10 m ρ c (Proc.devRef .tc main_v52) by host_keep)
theorem W12_v52 : W12 m ρ c (Proc.devRef .tc main_v52) = W10 m ρ c (Proc.devRef .tc main_v52) :=
  (show W12 m ρ c (Proc.devRef .tc main_v52) = W11 m ρ c (Proc.devRef .tc main_v52) by host_keep).trans (W11_v52 m ρ c)
theorem W13_v52 : W13 m ρ c (Proc.devRef .tc main_v52) = W10 m ρ c (Proc.devRef .tc main_v52) :=
  (show W13 m ρ c (Proc.devRef .tc main_v52) = W12 m ρ c (Proc.devRef .tc main_v52) by host_keep).trans (W12_v52 m ρ c)

end Cert.KernelIdeal.Kept

end
-- ==== Proof.Fold.lean ====
/-
  The kernel program's run, read boundary by boundary.
  @main is host lines, a region, host lines, two regions, host lines, two regions, host lines, a region, a slice. The
  contents at each boundary are a fold from the launch memory: a stretch of host lines leaves each line's value at its
  operands; a region leaves its result array at the row-wise stage of the arrays it finds and every other buffer as
  it was. Read in order, each layer's arrays are the host program's own values of the arguments:
    the two degree norms, kept as columns;
    features scaled by the source norm; their sum along the edges (the same host lines in both programs);
    the transform of the sums, clamped in the first two layers; in the last, weights and bias padded to 128 columns
    and the result cut back to 64.
  A buffer is written once, so what a boundary holds at an earlier result or at an argument is what was written there
  (the table of those facts is its own module).
-/
import proofs.«424892_j39814346834505_3_alg».proof.Proof.Gen.KernelIdeal.Frame
import proofs.«424892_j39814346834505_3_alg».proof.Proof.Gen.ReferenceIdeal.Read
import proofs.«424892_j39814346834505_3_alg».proof.Proof.Region0
import proofs.«424892_j39814346834505_3_alg».proof.Proof.Region1
import proofs.«424892_j39814346834505_3_alg».proof.Proof.Region2
import proofs.«424892_j39814346834505_3_alg».proof.Proof.Region3
import proofs.«424892_j39814346834505_3_alg».proof.Proof.Region4
import proofs.«424892_j39814346834505_3_alg».proof.Proof.Region5
import proofs.«424892_j39814346834505_3_alg».proof.Proof.Bridge
import proofs.«424892_j39814346834505_3_alg».proof.Proof.Kept
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Kept Cert.ReferenceIdeal.Read

variable (m : (ℓ : Loc nD τ sig) → Buf (Elt Ideal) ℓ) (ρ : Dev nD → PrngReg) (c : Dev nD)

/-! ## The arguments' launch contents, as the host program's value functions take them -/

abbrev x0 : (⟨Cert.ReferenceIdeal.S100000x128, .f32⟩ : BufTy).Contents (Elt Ideal) := m ((c : Thread nD τ).loc main_arg0)
abbrev x1 : (⟨Cert.ReferenceIdeal.S1600000, .i32⟩ : BufTy).Contents (Elt Ideal) := m ((c : Thread nD τ).loc main_arg1)
abbrev x2 : (⟨Cert.ReferenceIdeal.S1600000, .i32⟩ : BufTy).Contents (Elt Ideal) := m ((c : Thread nD τ).loc main_arg2)
abbrev x3 : (⟨Cert.ReferenceIdeal.S128x128, .f32⟩ : BufTy).Contents (Elt Ideal) := m ((c : Thread nD τ).loc main_arg3)
abbrev x4 : (⟨Cert.ReferenceIdeal.S128, .f32⟩ : BufTy).Contents (Elt Ideal) := m ((c : Thread nD τ).loc main_arg4)
abbrev x5 : (⟨Cert.ReferenceIdeal.S128x128, .f32⟩ : BufTy).Contents (Elt Ideal) := m ((c : Thread nD τ).loc main_arg5)
abbrev x6 : (⟨Cert.ReferenceIdeal.S128, .f32⟩ : BufTy).Contents (Elt Ideal) := m ((c : Thread nD τ).loc main_arg6)
abbrev x7 : (⟨Cert.ReferenceIdeal.S128x64, .f32⟩ : BufTy).Contents (Elt Ideal) := m ((c : Thread nD τ).loc main_arg7)
abbrev x8 : (⟨Cert.ReferenceIdeal.S64, .f32⟩ : BufTy).Contents (Elt Ideal) := m ((c : Thread nD τ).loc main_arg8)

/-! ## After the first host lines: the two degree norms as columns -/

/-- The source-degree norm, cast to a column. -/
theorem W1_v13 : W1 m ρ c (Proc.devRef .tc main_v13)
    = shapeCast S100000x1 (val_main_v9 (F := Ideal) (x1 m c)) shapeCasts_S100000_S100000x1 := by
  show StableHlo.after hostOps0 (W0 m ρ c) (Proc.devRef .tc main_v13) = _
  after_results
  rfl

/-- The target-degree norm, cast to a column. -/
theorem W1_v14 : W1 m ρ c (Proc.devRef .tc main_v14)
    = shapeCast S100000x1 (val_main_v12 (F := Ideal) (x2 m c)) shapeCasts_S100000_S100000x1 := by
  show StableHlo.after hostOps0 (W0 m ρ c) (Proc.devRef .tc main_v14) = _
  after_results
  rfl

/-! ## Layer 1 -/

/-- The features scaled by the source norm. -/
theorem W2_v15 : W2 m ρ c (Proc.devRef .tc main_v15) = val_main_v15 (F := Ideal) (x0 m c) (x1 m c) := by
  refine (W2_arr m ρ c 2).trans ?_
  refine (Region0.arr (V1 m ρ) c).trans ?_
  show Cert.Gcn.scaleRows (W1 m ρ c (Proc.devRef .tc main_arg0)) (W1 m ρ c (Proc.devRef .tc main_v13)) = _
  rw [W1_arg0 m ρ c, W1_v13 m ρ c]
  exact Cert.Gcn.Bridge.scale_eq _ _ _ _ _

/-- Their sum along the edges. -/
theorem W3_v25 : W3 m ρ c (Proc.devRef .tc main_v25) = val_main_v25 (F := Ideal) (x0 m c) (x1 m c) (x2 m c) := by
  show StableHlo.after hostOps1 (W2 m ρ c) (Proc.devRef .tc main_v25) = _
  after_results
  rw [W2_v15 m ρ c, W2_arg1 m ρ c, W2_arg2 m ρ c]
  rfl

/-- The first bias as a row. -/
theorem W3_v26 : W3 m ρ c (Proc.devRef .tc main_v26) = shapeCast S1x128 (x4 m c) shapeCasts_S128_S1x128 := by
  show StableHlo.after hostOps1 (W2 m ρ c) (Proc.devRef .tc main_v26) = _
  after_results
  rw [W2_arg4 m ρ c]
  rfl

/-- The first layer's result: the transform of the sums, clamped at zero. -/
theorem W4_v27 : W4 m ρ c (Proc.devRef .tc main_v27)
    = val_main_v33 (F := Ideal) (x0 m c) (x1 m c) (x2 m c) (x3 m c) (x4 m c) := by
  refine (W4_arr m ρ c 4).trans ?_
  refine (Region1.arr (V3 m ρ) c).trans ?_
  show Cert.Gcn.denseReluRows (W3 m ρ c (Proc.devRef .tc main_v25)) (W3 m ρ c (Proc.devRef .tc main_v14))
    (W3 m ρ c (Proc.devRef .tc main_arg3)) (W3 m ρ c (Proc.devRef .tc main_v26)) = _
  rw [W3_v25 m ρ c, W3_v14 m ρ c, W1_v14 m ρ c, W3_arg3 m ρ c, W3_v26 m ρ c]
  exact Cert.Gcn.Bridge.denseRelu_eq _ _ _ _ _ _ _ _ _ _ _

/-! ## Layer 2 -/

/-- The first layer's result scaled by the source norm. -/
theorem W5_v28 : W5 m ρ c (Proc.devRef .tc main_v28)
    = val_main_v36 (F := Ideal) (x0 m c) (x1 m c) (x2 m c) (x3 m c) (x4 m c) := by
  refine (W5_arr m ρ c 2).trans ?_
  refine (Region2.arr (V4 m ρ) c).trans ?_
  show Cert.Gcn.scaleRows (W4 m ρ c (Proc.devRef .tc main_v27)) (W4 m ρ c (Proc.devRef .tc main_v13)) = _
  rw [W4_v27 m ρ c, W4_v13 m ρ c, W1_v13 m ρ c]
  exact Cert.Gcn.Bridge.scale_eq _ _ _ _ _

/-- Its sum along the edges. -/
theorem W6_v38 : W6 m ρ c (Proc.devRef .tc main_v38)
    = val_main_v46 (F := Ideal) (x0 m c) (x1 m c) (x2 m c) (x3 m c) (x4 m c) := by
  show StableHlo.after hostOps3 (W5 m ρ c) (Proc.devRef .tc main_v38) = _
  after_results
  rw [W5_v28 m ρ c, W5_arg1 m ρ c, W5_arg2 m ρ c]
  rfl

/-- The second bias as a row. -/
theorem W6_v39 : W6 m ρ c (Proc.devRef .tc main_v39) = shapeCast S1x128 (x6 m c) shapeCasts_S128_S1x128 := by
  show StableHlo.after hostOps3 (W5 m ρ c) (Proc.devRef .tc main_v39) = _
  after_results
  rw [W5_arg6 m ρ c]
  rfl

/-- The second layer's result. -/
theorem W7_v40 : W7 m ρ c (Proc.devRef .tc main_v40)
    = val_main_v54 (F := Ideal) (x0 m c) (x1 m c) (x2 m c) (x3 m c) (x4 m c) (x5 m c) (x6 m c) := by
  refine (W7_arr m ρ c 4).trans ?_
  refine (Region3.arr (V6 m ρ) c).trans ?_
  show Cert.Gcn.denseReluRows (W6 m ρ c (Proc.devRef .tc main_v38)) (W6 m ρ c (Proc.devRef .tc main_v14))
    (W6 m ρ c (Proc.devRef .tc main_arg5)) (W6 m ρ c (Proc.devRef .tc main_v39)) = _
  rw [W6_v38 m ρ c, W6_v14 m ρ c, W1_v14 m ρ c, W6_arg5 m ρ c, W6_v39 m ρ c]
  exact Cert.Gcn.Bridge.denseRelu_eq _ _ _ _ _ _ _ _ _ _ _

/-! ## Layer 3 -/

/-- The second layer's result scaled by the source norm. -/
theorem W8_v41 : W8 m ρ c (Proc.devRef .tc main_v41)
    = val_main_v57 (F := Ideal) (x0 m c) (x1 m c) (x2 m c) (x3 m c) (x4 m c) (x5 m c) (x6 m c) := by
  refine (W8_arr m ρ c 2).trans ?_
  refine (Region4.arr (V7 m ρ) c).trans ?_
  show Cert.Gcn.scaleRows (W7 m ρ c (Proc.devRef .tc main_v40)) (W7 m ρ c (Proc.devRef .tc main_v13)) = _
  rw [W7_v40 m ρ c, W7_v13 m ρ c, W1_v13 m ρ c]
  exact Cert.Gcn.Bridge.scale_eq _ _ _ _ _

/-- Its sum along the edges. -/
theorem W9_v51 : W9 m ρ c (Proc.devRef .tc main_v51)
    = val_main_v67 (F := Ideal) (x0 m c) (x1 m c) (x2 m c) (x3 m c) (x4 m c) (x5 m c) (x6 m c) := by
  show StableHlo.after hostOps5 (W8 m ρ c) (Proc.devRef .tc main_v51) = _
  after_results
  simp only [W8_v41 m ρ c, W8_arg1 m ρ c, W8_arg2 m ρ c]
  rfl

/-- The scalar the last weights and the last bias are padded with: the integer zero, converted. -/
abbrev padZero : FVec Ideal S_ .f32 := sitofp (F := Ideal) .f32 (constantI S_ 32 0#32)

/-- The last weights padded with 64 more columns (at whatever value the padding scalar holds). -/
theorem W10_v52 : W10 m ρ c (Proc.devRef .tc main_v52)
    = pad S128x128 ![0, 0] ![0, 64] ![0, 0] (x7 m c) padZero
        pads_S128x64_S128x128_000_0640 h_S_ := by
  show StableHlo.after hostOps5_1 (W9 m ρ c) (Proc.devRef .tc main_v52) = _
  after_results
  show pad S128x128 ![0, 0] ![0, 64] ![0, 0] (W8 m ρ c (Proc.devRef .tc main_arg7)) padZero pads_S128x64_S128x128_000_0640 h_S_ = _
  rw [W8_arg7 m ρ c]

/-- The last bias padded with 64 more entries, as a row. -/
theorem W13_v54 : W13 m ρ c (Proc.devRef .tc main_v54)
    = shapeCast S1x128 (pad S128 ![0] ![64] ![0] (x8 m c) padZero
        pads_S64_S128_0640 h_S_) shapeCasts_S128_S1x128 := by
  show StableHlo.after hostOps5_4 (StableHlo.after hostOps5_3 (W11 m ρ c)) (Proc.devRef .tc main_v54) = _
  after_results
  show shapeCast S1x128 (pad S128 ![0] ![64] ![0] (W8 m ρ c (Proc.devRef .tc main_arg8)) padZero pads_S64_S128_0640 h_S_)
    shapeCasts_S128_S1x128 = _
  rw [W8_arg8 m ρ c]

/-- The last transform over the padded weights and bias. -/
theorem W14_v55 : W14 m ρ c (Proc.devRef .tc main_v55)
    = Cert.Gcn.denseRows (val_main_v67 (F := Ideal) (x0 m c) (x1 m c) (x2 m c) (x3 m c) (x4 m c) (x5 m c) (x6 m c))
        (shapeCast S100000x1 (val_main_v12 (F := Ideal) (x2 m c)) shapeCasts_S100000_S100000x1)
        (pad S128x128 ![0, 0] ![0, 64] ![0, 0] (x7 m c) padZero pads_S128x64_S128x128_000_0640 h_S_)
        (shapeCast S1x128 (pad S128 ![0] ![64] ![0] (x8 m c) padZero pads_S64_S128_0640 h_S_)
          shapeCasts_S128_S1x128) := by
  refine (W14_arr m ρ c 4).trans ?_
  refine (Region5.arr (V13 m ρ) c).trans ?_
  show Cert.Gcn.denseRows (W13 m ρ c (Proc.devRef .tc main_v51)) (W13 m ρ c (Proc.devRef .tc main_v14))
    (W13 m ρ c (Proc.devRef .tc main_v52)) (W13 m ρ c (Proc.devRef .tc main_v54)) = _
  rw [W13_v51 m ρ c, W9_v51 m ρ c, W13_v14 m ρ c, W1_v14 m ρ c, W13_v52 m ρ c, W10_v52 m ρ c, W13_v54 m ρ c]

/-- The last layer's result: the first 64 columns of that. -/
theorem W15_v56 : W15 m ρ c (Proc.devRef .tc main_v56)
    = val_main_v74 (F := Ideal) (x0 m c) (x1 m c) (x2 m c) (x3 m c) (x4 m c) (x5 m c) (x6 m c) (x7 m c) (x8 m c) := by
  show StableHlo.after hostOps6 (W14 m ρ c) (Proc.devRef .tc main_v56) = _
  after_results
  rw [W14_v55 m ρ c]
  exact Cert.Gcn.Bridge.denseLast_eq _ _ _ _ _ _ _ _ _ _ _ _ _ _ _ _

/-! ## The three results at the return -/

theorem out1 : W15 m ρ c (Proc.devRef .tc main_v27)
    = val_main_v33 (F := Ideal) (x0 m c) (x1 m c) (x2 m c) (x3 m c) (x4 m c) :=
  (W15_v27 m ρ c).trans (W4_v27 m ρ c)

theorem out2 : W15 m ρ c (Proc.devRef .tc main_v40)
    = val_main_v54 (F := Ideal) (x0 m c) (x1 m c) (x2 m c) (x3 m c) (x4 m c) (x5 m c) (x6 m c) :=
  (W15_v40 m ρ c).trans (W7_v40 m ρ c)

end Cert.KernelIdeal.Fold

end
-- ==== Proof.lean ====
/-
  A three-layer graph convolution on 100000 nodes and 1600000 edges: the kernel program against the plain host program.
  Both compute, per layer, `act ((sum over edges (x · D_out^{-1/2})) · D_in^{-1/2} · W + b)` with the degree norms
  `rsqrt (max (degree, 1))`. The kernel program runs the two row-wise stages of each layer — the scaling by the source
  norm, and the scaling by the target norm followed by the product with the weights, the bias and the clamp — as
  pipelined regions over ten blocks of 10000 rows, and keeps the degree counts, the gather along the edges and the
  scatter-add on the host, in the same lines as the host program; in the last layer it pads weights and bias from 64 to
  128 columns and cuts the result back to 64.
  On the extended reals the two programs are the same function of the arguments: a region's result array is its
  row-wise stage of the arrays it finds, block by block; a matrix product into a zero accumulator and the host's
  `dot_general` are the same sum over the contracted axis; a norm cast to a column and a norm broadcast to a column read
  the same entry; and no kept entry of the last layer reads a padded column. No law used needs finite entries, so the
  precondition is never opened. The frames are the generated ones; the idealization rewrote nothing.
-/
import proofs.«424892_j39814346834505_3_alg».proof.Defs
import proofs.«424892_j39814346834505_3_alg».proof.Proof.Gen.Kernel
import proofs.«424892_j39814346834505_3_alg».proof.Proof.Gen.Kernel.Frame
import proofs.«424892_j39814346834505_3_alg».proof.Proof.Gen.KernelIdeal
import proofs.«424892_j39814346834505_3_alg».proof.Proof.Gen.KernelIdeal.Frame
import proofs.«424892_j39814346834505_3_alg».proof.Proof.Gen.ReferenceIdeal
import proofs.«424892_j39814346834505_3_alg».proof.Proof.Gen.ReferenceIdeal.Run
import proofs.«424892_j39814346834505_3_alg».proof.Proof.Gen.ReferenceIdeal.Read
import proofs.«424892_j39814346834505_3_alg».proof.Proof.Gen.Pre_finite_inputs
import proofs.«424892_j39814346834505_3_alg».proof.Proof.KernelRun
import proofs.«424892_j39814346834505_3_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The host program runs and leaves its arguments as launched: its run, the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the features unchanged and with the three layers'
    results at the host program's values of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.ReferenceIdeal.Read.val_main_v33 (F := Ideal) (Cert.KernelIdeal.Fold.x0 m c) (Cert.KernelIdeal.Fold.x1 m c) (Cert.KernelIdeal.Fold.x2 m c) (Cert.KernelIdeal.Fold.x3 m c) (Cert.KernelIdeal.Fold.x4 m c),
    fun c => Cert.ReferenceIdeal.Read.val_main_v54 (F := Ideal) (Cert.KernelIdeal.Fold.x0 m c) (Cert.KernelIdeal.Fold.x1 m c) (Cert.KernelIdeal.Fold.x2 m c) (Cert.KernelIdeal.Fold.x3 m c) (Cert.KernelIdeal.Fold.x4 m c) (Cert.KernelIdeal.Fold.x5 m c) (Cert.KernelIdeal.Fold.x6 m c),
    fun c => Cert.ReferenceIdeal.Read.val_main_v74 (F := Ideal) (Cert.KernelIdeal.Fold.x0 m c) (Cert.KernelIdeal.Fold.x1 m c) (Cert.KernelIdeal.Fold.x2 m c) (Cert.KernelIdeal.Fold.x3 m c) (Cert.KernelIdeal.Fold.x4 m c) (Cert.KernelIdeal.Fold.x5 m c) (Cert.KernelIdeal.Fold.x6 m c) (Cert.KernelIdeal.Fold.x7 m c) (Cert.KernelIdeal.Fold.x8 m c), ?_, ?_⟩
  · refine (θ_run Cert.KernelIdeal.defs _ _).mono (fun r h c => ?_) (Cert.KernelIdeal.GenRun.run_all (F := Ideal) m ρ)
    exact ⟨(h c _ (Cert.KernelIdeal.Gen.mem_uc Cert.KernelIdeal.main_arg0 (by decide))).trans (Cert.KernelIdeal.Gen.W15_main_arg0 m ρ c),
      (h c _ (Cert.KernelIdeal.Gen.mem_uc Cert.KernelIdeal.main_v27 (by decide))).trans (Cert.KernelIdeal.Fold.out1 m ρ c),
      (h c _ (Cert.KernelIdeal.Gen.mem_uc Cert.KernelIdeal.main_v40 (by decide))).trans (Cert.KernelIdeal.Fold.out2 m ρ c),
      (h c _ (Cert.KernelIdeal.Gen.mem_uc Cert.KernelIdeal.main_v56 (by decide))).trans (Cert.KernelIdeal.Fold.W15_v56 m ρ c),
      (h c _ (Cert.KernelIdeal.Gen.mem_uc Cert.KernelIdeal.main_arg0 (by decide))).trans (Cert.KernelIdeal.Gen.W15_main_arg0 m ρ c),
      (h c _ (Cert.KernelIdeal.Gen.mem_uc Cert.KernelIdeal.main_arg1 (by decide))).trans (Cert.KernelIdeal.Gen.W15_main_arg1 m ρ c),
      (h c _ (Cert.KernelIdeal.Gen.mem_uc Cert.KernelIdeal.main_arg2 (by decide))).trans (Cert.KernelIdeal.Gen.W15_main_arg2 m ρ c),
      (h c _ (Cert.KernelIdeal.Gen.mem_uc Cert.KernelIdeal.main_arg3 (by decide))).trans (Cert.KernelIdeal.Gen.W15_main_arg3 m ρ c),
      (h c _ (Cert.KernelIdeal.Gen.mem_uc Cert.KernelIdeal.main_arg4 (by decide))).trans (Cert.KernelIdeal.Gen.W15_main_arg4 m ρ c),
      (h c _ (Cert.KernelIdeal.Gen.mem_uc Cert.KernelIdeal.main_arg5 (by decide))).trans (Cert.KernelIdeal.Gen.W15_main_arg5 m ρ c),
      (h c _ (Cert.KernelIdeal.Gen.mem_uc Cert.KernelIdeal.main_arg6 (by decide))).trans (Cert.KernelIdeal.Gen.W15_main_arg6 m ρ c),
      (h c _ (Cert.KernelIdeal.Gen.mem_uc Cert.KernelIdeal.main_arg7 (by decide))).trans (Cert.KernelIdeal.Gen.W15_main_arg7 m ρ c),
      (h c _ (Cert.KernelIdeal.Gen.mem_uc Cert.KernelIdeal.main_arg8 (by decide))).trans (Cert.KernelIdeal.Gen.W15_main_arg8 m ρ c)⟩
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8⟩ := hagree c
    refine ⟨h0.trans e0, h1.trans ((Cert.ReferenceIdeal.Read.val_main_v33_eq _ _ _ _ _).trans ?_),
      h2.trans ((Cert.ReferenceIdeal.Read.val_main_v54_eq m' c).trans ?_), h3.trans ((Cert.ReferenceIdeal.Read.val_main_v74_eq m' c).trans ?_), hargs⟩
    · rw [e0, e1, e2, e3, e4]
    · rw [e0, e1, e2, e3, e4, e5, e6]
    · rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
